-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x2x128 : Shape := ⟨4, ![16, 1024, 2, 128]⟩
abbrev S16x1024 : Shape := ⟨2, ![16, 1024]⟩
abbrev S_ : Shape := ⟨0, ![]⟩

class Facts : Prop where
  bcast_S_S16x1024x2x128 : S_.BroadcastsInDim S16x1024x2x128 (![] : Fin 0 → Fin S16x1024x2x128.rank)
  reducesTo_S16x1024x2x128_S_d0_1_2_3 : S16x1024x2x128.ReducesTo [0, 1, 2, 3] S_
  h_S_ : 0 < S_.numel

variable [Facts]

def fn {F : FTy → Type} [FloatOps F] (main_arg0 : FVec F S16x1024x2x128 .f32) (main_arg1 : IVec S16x1024 32) : IVec S_ 1 :=
  let main_v0 : FVec F S16x1024x2x128 .f32 := Host.absf main_arg0
  let main_cst : FVec F S_ .f32 := constant S_ .f32 0x7F800000#32
  let main_v1 : FVec F S16x1024x2x128 .f32 := broadcastInDim S16x1024x2x128 ![] bcast_S_S16x1024x2x128 main_cst
  let main_v2 : IVec S16x1024x2x128 1 := cmpf .olt main_v0 main_v1
  let main_c : IVec S_ 1 := constantI S_ 1 1#1
  let main_v3 : IVec S_ 1 := (fun x v => Host.reduce IntOp.andi x v reducesTo_S16x1024x2x128_S_d0_1_2_3 h_S_) main_v2 main_c
  main_v3
-- ==== Kernel.lean ====
abbrev S16x1024x2x128 : Shape := ⟨4, ![16, 1024, 2, 128]⟩
abbrev S16x1024 : Shape := ⟨2, ![16, 1024]⟩
abbrev S16x2x1024x128 : Shape := ⟨4, ![16, 2, 1024, 128]⟩
abbrev S16x2048x128 : Shape := ⟨3, ![16, 2048, 128]⟩
abbrev S1x16x1x1024 : Shape := ⟨4, ![1, 16, 1, 1024]⟩
abbrev S1x16x2x1024 : Shape := ⟨4, ![1, 16, 2, 1024]⟩
abbrev S16x2048 : Shape := ⟨2, ![16, 2048]⟩
abbrev S16x2048x1 : Shape := ⟨3, ![16, 2048, 1]⟩
abbrev S16x1x2048 : Shape := ⟨3, ![16, 1, 2048]⟩
abbrev S1x512x128 : Shape := ⟨3, ![1, 512, 128]⟩
abbrev S1x2048x128 : Shape := ⟨3, ![1, 2048, 128]⟩
abbrev S1x512x1 : Shape := ⟨3, ![1, 512, 1]⟩
abbrev S1x1x2048 : Shape := ⟨3, ![1, 1, 2048]⟩
abbrev S512x128 : Shape := ⟨2, ![512, 128]⟩
abbrev S2048x128 : Shape := ⟨2, ![2048, 128]⟩
abbrev S512x1 : Shape := ⟨2, ![512, 1]⟩
abbrev S1x2048 : Shape := ⟨2, ![1, 2048]⟩
abbrev S128x2048 : Shape := ⟨2, ![128, 2048]⟩
abbrev S512x2048 : Shape := ⟨2, ![512, 2048]⟩
abbrev S512 : Shape := ⟨1, ![512]⟩
abbrev S_ : Shape := ⟨0, ![]⟩

abbrev nBuf : Space → Nat
  | .hbm => 17
  | .vmem => 10
  | .smem => 0
  | _ => 0

abbrev bufTy : (tb : Table) → Fin (tcTables nBuf tb) → BufTy
  | .hbm, ⟨0, _⟩ => ⟨S16x1024x2x128, .f32⟩
  | .hbm, ⟨1, _⟩ => ⟨S16x1024, .i32⟩
  | .hbm, ⟨2, _⟩ => ⟨S16x2x1024x128, .f32⟩
  | .hbm, ⟨3, _⟩ => ⟨S16x2048x128, .f32⟩
  | .hbm, ⟨4, _⟩ => ⟨S1x16x1x1024, .i32⟩
  | .hbm, ⟨5, _⟩ => ⟨S1x16x2x1024, .i32⟩
  | .hbm, ⟨6, _⟩ => ⟨S16x2048, .i32⟩
  | .hbm, ⟨7, _⟩ => ⟨S16x2048x1, .i32⟩
  | .hbm, ⟨8, _⟩ => ⟨S16x1x2048, .i32⟩
  | .hbm, ⟨9, _⟩ => ⟨S16x2048x1, .f32⟩
  | .hbm, ⟨10, _⟩ => ⟨S16x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x512x1, .i32⟩
  | .local _ .vmem, ⟨5, _⟩ => ⟨S1x512x1, .i32⟩
  | .local _ .vmem, ⟨6, _⟩ => ⟨S1x1x2048, .i32⟩
  | .local _ .vmem, ⟨7, _⟩ => ⟨S1x1x2048, .i32⟩
  | .local _ .vmem, ⟨8, _⟩ => ⟨S1x512x1, .f32⟩
  | .local _ .vmem, ⟨9, _⟩ => ⟨S1x512x1, .f32⟩
  | _, _ => ⟨S16x1024x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S16x1024x2x128_S16x2x1024x128_0_2_1_3 : S16x1024x2x128.Transposes [0, 2, 1, 3] S16x2x1024x128
  shapeCasts_S16x2x1024x128_S16x2048x128 : S16x2x1024x128.ShapeCasts S16x2048x128
  shapeCasts_S16x1024_S1x16x1x1024 : S16x1024.ShapeCasts S1x16x1x1024
  bcast_S1x16x1x1024_S1x16x2x1024_0_1_2_3 : S1x16x1x1024.BroadcastsInDim S1x16x2x1024 (![0, 1, 2, 3] : Fin 4 → Fin S1x16x2x1024.rank)
  shapeCasts_S1x16x2x1024_S16x2048 : S1x16x2x1024.ShapeCasts S16x2048
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  bitsLt_bf16_f32 : FTy.bits .bf16 < FTy.bits .f32
  transposes_S2048x128_p1_0_S128x2048 : S2048x128.Transposes [1, 0] S128x2048
  reduces_S512x2048_S512 : S512x2048.Reduces [1] S512
  shapeCasts_S512_S512x1 : S512.ShapeCasts S512x1
  iota_S512x2048_d0_w32 : S512x2048.Iotas .tc 32 [0]
  iota_S512x2048_d1_w32 : S512x2048.Iotas .tc 32 [1]
  natLt_1_32 : 1 < 32
  broadcasts_S512x1_S512x2048 : S512x1.Broadcasts S512x2048
  broadcasts_S1x2048_S512x2048 : S1x2048.Broadcasts S512x2048
  shapeCasts_S512x1_S1x512x1 : S512x1.ShapeCasts S1x512x1
  shapeCasts_S16x2048x1_S16x2048 : S16x2048x1.ShapeCasts S16x2048
  reducesTo_S16x2048_S_d0_1 : S16x2048.ReducesTo [0, 1] S_
  h_S_ : 0 < S_.numel
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S16x2048x128.size a
  hwx0_0 : ∀ i : grid0.Coords, EltTy.bits .f32 = 32 ∨ (Rect.block (s := S16x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S16x2048x1.size a
  hwx0_2 : ∀ i : grid0.Coords, EltTy.bits .i32 = 32 ∨ (Rect.block (s := S16x2048x1) S1x512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S16x1x2048.size a
  hwx0_3 : ∀ i : grid0.Coords, EltTy.bits .i32 = 32 ∨ (Rect.block (s := S16x1x2048) S1x1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S16x2048x1.size a
  hwx0_4 : ∀ i : grid0.Coords, EltTy.bits .f32 = 32 ∨ (Rect.block (s := S16x2048x1) S1x512x1.size (cc0_transform_4 i) (hinb0_4 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_v1) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024x2x128 : Shape := ⟨4, ![16, 1024, 2, 128]⟩
abbrev S16x1024 : Shape := ⟨2, ![16, 1024]⟩
abbrev S16x2x1024x128 : Shape := ⟨4, ![16, 2, 1024, 128]⟩
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1024x1 : Shape := ⟨3, ![16, 1024, 1]⟩
abbrev S16x1x1024 : Shape := ⟨3, ![16, 1, 1024]⟩
abbrev S16x1024x1024 : Shape := ⟨3, ![16, 1024, 1024]⟩
abbrev S1x16x1x1024x1x1024 : Shape := ⟨6, ![1, 16, 1, 1024, 1, 1024]⟩
abbrev S1x16x2x1024x2x1024 : Shape := ⟨6, ![1, 16, 2, 1024, 2, 1024]⟩
abbrev S2048x2048 : Shape := ⟨2, ![2048, 2048]⟩
abbrev S1x2048x2048 : Shape := ⟨3, ![1, 2048, 2048]⟩
abbrev S16 : Shape := ⟨1, ![16]⟩

abbrev nBuf : Space → Nat
  | .hbm => 63
  | .vmem => 0
  | .smem => 0
  | _ => 0

abbrev bufTy : (tb : Table) → Fin (tcTables nBuf tb) → BufTy
  | .hbm, ⟨0, _⟩ => ⟨S16x1024x2x128, .f32⟩
  | .hbm, ⟨1, _⟩ => ⟨S16x1024, .i32⟩
  | .hbm, ⟨2, _⟩ => ⟨S16x2x1024x128, .f32⟩
  | .hbm, ⟨3, _⟩ => ⟨S16x2048x128, .f32⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S16x2048x2048, .f32⟩
  | .hbm, ⟨12, _⟩ => ⟨S16x2048x2048, .f32⟩
  | .hbm, ⟨13, _⟩ => ⟨S16x1024x1, .i32⟩
  | .hbm, ⟨14, _⟩ => ⟨S16x1x1024, .i32⟩
  | .hbm, ⟨15, _⟩ => ⟨S16x1024x1024, .i32⟩
  | .hbm, ⟨16, _⟩ => ⟨S16x1024x1024, .i32⟩
  | .hbm, ⟨17, _⟩ => ⟨S16x1024x1024, .i1⟩
  | .hbm, ⟨18, _⟩ => ⟨S16x1024x1024, .f32⟩
  | .hbm, ⟨19, _⟩ => ⟨S1x16x1x1024x1x1024, .f32⟩
  | .hbm, ⟨20, _⟩ => ⟨S1x16x2x1024x2x1024, .f32⟩
  | .hbm, ⟨21, _⟩ => ⟨S16x2048x2048, .f32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S1x2048x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S1x2048x2048, .f32⟩
  | .hbm, ⟨37, _⟩ => ⟨S16x2048x2048, .f32⟩
  | .hbm, ⟨38, _⟩ => ⟨S16x2048x2048, .f32⟩
  | .hbm, ⟨39, _⟩ => ⟨S_, .f32⟩
  | .hbm, ⟨40, _⟩ => ⟨S16x2048, .f32⟩
  | .hbm, ⟨41, _⟩ => ⟨S16x2048x1, .f32⟩
  | .hbm, ⟨42, _⟩ => ⟨S16x2048x1, .f32⟩
  | .hbm, ⟨43, _⟩ => ⟨S16x2048x2048, .f32⟩
  | .hbm, ⟨44, _⟩ => ⟨S16x2048x2048, .f32⟩
  | .hbm, ⟨45, _⟩ => ⟨S16x2048x2048, .f32⟩
  | .hbm, ⟨46, _⟩ => ⟨S_, .f32⟩
  | .hbm, ⟨47, _⟩ => ⟨S16x2048, .f32⟩
  | .hbm, ⟨48, _⟩ => ⟨S_, .f32⟩
  | .hbm, ⟨49, _⟩ => ⟨S16x2048, .f32⟩
  | .hbm, ⟨50, _⟩ => ⟨S16x2048, .f32⟩
  | .hbm, ⟨51, _⟩ => ⟨S_, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S16x1024x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩

abbrev nD : Nat := 1
abbrev τ : Topo := Topo.v7x

variable {F : FTy → Type} [FloatOps F]

class Facts₀ : Prop where
  transposes_S16x1024x2x128_S16x2x1024x128_0_2_1_3 : S16x1024x2x128.Transposes [0, 2, 1, 3] S16x2x1024x128
  shapeCasts_S16x2x1024x128_S16x2048x128 : S16x2x1024x128.ShapeCasts S16x2048x128
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S16x1024_S16x1024x1_0_1 : S16x1024.BroadcastsInDim S16x1024x1 (![0, 1] : Fin 2 → Fin S16x1024x1.rank)
  bcast_S16x1024_S16x1x1024_0_2 : S16x1024.BroadcastsInDim S16x1x1024 (![0, 2] : Fin 2 → Fin S16x1x1024.rank)
  bcast_S16x1024x1_S16x1024x1024_0_1_2 : S16x1024x1.BroadcastsInDim S16x1024x1024 (![0, 1, 2] : Fin 3 → Fin S16x1024x1024.rank)
  bcast_S16x1x1024_S16x1024x1024_0_1_2 : S16x1x1024.BroadcastsInDim S16x1024x1024 (![0, 1, 2] : Fin 3 → Fin S16x1024x1024.rank)
  shapeCasts_S16x1024x1024_S1x16x1x1024x1x1024 : S16x1024x1024.ShapeCasts S1x16x1x1024x1x1024
  bcast_S1x16x1x1024x1x1024_S1x16x2x1024x2x1024_0_1_2_3_4_5 : S1x16x1x1024x1x1024.BroadcastsInDim S1x16x2x1024x2x1024 (![0, 1, 2, 3, 4, 5] : Fin 6 → Fin S1x16x2x1024x2x1024.rank)
  shapeCasts_S1x16x2x1024x2x1024_S16x2048x2048 : S1x16x2x1024x2x1024.ShapeCasts S16x2048x2048
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  reducesTo_S16x2048_S16_d1 : S16x2048.ReducesTo [1] S16
  bcast_S_S16 : S_.BroadcastsInDim S16 (![] : Fin 0 → Fin S16.rank)
  reducesTo_S16_S_d0 : S16.ReducesTo [0] S_
  dot_S16x2048x128_S16x2048x128_S16x2048x2048_2_2_1_1_0_0_wf : DotDims.WF S16x2048x128 S16x2048x128 S16x2048x2048 [2] [2] [1] [1] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf

class Facts : Prop extends Facts₀ where

variable [Facts]
-- ==== Proof.KernelRegion.lean ====
/-
  One kernel region: sixteen problems times four tiles of 512 query rows. At grid point `t` the pipeline hands the
  body four input blocks — the tile's 512 feature rows, the problem's 2048 feature rows (both read from ONE array,
  the view-major feature matrix, held at two half shares), the tile's 512 labels as a column and the problem's
  2048 labels as a row — and the body stores one output block: the tile's 512 row values, a pure function of the
  four input blocks and of the tile's position. This module fixes that function (`out4`), runs the body once
  against it, and states what the pipeline needs of every grid point.
-/
import proofs.«105418_j83786222010855_1_alg».proof.Proof.Gen.Kernel.Launch
import proofs.«105418_j83786222010855_1_alg».proof.Proof.Gen.Kernel.Skeleton
import proofs.«105418_j83786222010855_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (a window whose block index
    does not move between two points is not fetched again, and the body leaves it in place). -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the store take the whole block -/

abbrev rq : Rect S1x512x128 := Rect.unit (s := S1x512x128) ![0, 0, 0] S1x512x128.size inb_S1x512x128_S1x512x128_0_0_0
abbrev rk : Rect S1x2048x128 := Rect.unit (s := S1x2048x128) ![0, 0, 0] S1x2048x128.size inb_S1x2048x128_S1x2048x128_0_0_0
abbrev rc : Rect S1x512x1 := Rect.unit (s := S1x512x1) ![0, 0, 0] S1x512x1.size inb_S1x512x1_S1x512x1_0_0_0
abbrev rr : Rect S1x1x2048 := Rect.unit (s := S1x1x2048) ![0, 0, 0] S1x1x2048.size inb_S1x1x2048_S1x1x2048_0_0_0

/-! ## What the body leaves in the output window's buffer -/

/-- The output block after the body, from the four input blocks and the grid coordinates: its one store. -/
def out4 (i : grid0.Coords) (x0 : Vec F S1x512x128 .f32) (x1 : Vec F S1x2048x128 .f32) (x2 : Vec F S1x512x1 .i32) (x3 : Vec F S1x1x2048 .i32) :
    Vec F S1x512x1 .f32 :=
  View.canon [⟨rc, k0_pay1 (k0_pay3 (View.ld x0 rq) (View.ld x1 rk)) (k0_pay5 i (View.ld x0 rq) (View.ld x1 rk))
    (k0_pay6 i (View.ld x2 rc) (View.ld x3 rr)) (k0_pay7 i (View.ld x0 rq) (View.ld x1 rk) (View.ld x2 rc) (View.ld x3 rr))⟩]

/-- The store covers the block. -/
theorem cover4 (p0 : Vec F S1x512x1 .f32) (y : S1x512x1.Idx) :
    ∃ pc ∈ ([⟨rc, p0⟩] : List (View.Piece (Elt F) S1x512x1 .f32)), y ∈ pc.1.set :=
  View.cover_of_tiled [⟨rc, p0⟩] S1x512x1.size (by rfl) y

/-! ## The body's triple -/

set_option maxHeartbeats 4000000 in
/-- The body on whole staging memrefs, the inputs' at read contents and the output's at anything, runs to the
    continuation holding the inputs' as they were and the output's at `out4` of the inputs'. -/
theorem sound_kernel (c : Dev nD) (E : Set ℕ) (i : grid0.Coords)
    (arg2 : Memref sig .tc .vmem S1x512x128 .f32) (harg2 : arg2.IsWhole) (arg3 : Memref sig .tc .vmem S1x2048x128 .f32) (harg3 : arg3.IsWhole)
    (arg4 : Memref sig .tc .vmem S1x512x1 .i32) (harg4 : arg4.IsWhole) (arg5 : Memref sig .tc .vmem S1x1x2048 .i32) (harg5 : arg5.IsWhole)
    (arg6 : Memref sig .tc .vmem S1x512x1 .f32) (harg6 : arg6.IsWhole)
    (x0 : Vec F S1x512x128 .f32) (x1 : Vec F S1x2048x128 .f32) (x2 : Vec F S1x512x1 .i32) (x3 : Vec F S1x1x2048 .i32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out4 i x0 x1 x2 x3)) -∗ K ⟨⟩))
      ⊢ wp frame (wpE (defs₀ (F := F)) Variants.none c none) E (cc0__supcon_kernel i arg2 harg2 arg3 harg3 arg4 harg4 arg5 harg5 arg6 harg6) K := by
  simp only [cc0__supcon_kernel_eq_skeleton]; unfold cc0__supcon_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover4 _)

/-! ## The pipeline's proof data -/

/-- The proof data on core `c`: the arrays as the region finds them; after the body at point `t` each input's buffer
    at its block and the output's at `out4` of the input blocks; the untouched scoped rest and generator register as
    the invariant; nothing owed. The feature matrix is read through two windows: each holds half of its share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (grid0.coords t) (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = out4 (grid0.coords t) (iblk V c 0 t) (iblk V c 1 t) (iblk V c 2 t) (iblk V c 3 t) := by dsimp only [dat]

theorem before_0 (c : Dev nD) (t : Fin cfg0.N) (d) : (dat V c).before 0 t d = iblk V c 0 t :=
  before_in0_of V (dat V c) (A_eq V c 0) (after_0 V c) t d
theorem before_1 (c : Dev nD) (t : Fin cfg0.N) (d) : (dat V c).before 1 t d = iblk V c 1 t :=
  before_in1_of V (dat V c) (A_eq V c 1) (after_1 V c) t d
theorem before_2 (c : Dev nD) (t : Fin cfg0.N) (d) : (dat V c).before 2 t d = iblk V c 2 t :=
  before_in2_of V (dat V c) (A_eq V c 2) (after_2 V c) t d
theorem before_3 (c : Dev nD) (t : Fin cfg0.N) (d) : (dat V c).before 3 t d = iblk V c 3 t :=
  before_in3_of V (dat V c) (A_eq V c 3) (after_3 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' memrefs hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Run

end
-- ==== Proof.KernelRun.lean ====
/-
  The whole program on a core: seven layout operations (the view-major feature matrix and the labels as a column and
  as a row), the kernel region, and seven operations after it (the row values summed, divided by 32768, negated).
  The run is followed buffer by buffer: what every unscoped buffer holds when the region is entered, when it is left
  (only the region's output array has changed: it holds what the grid points wrote back), and at the end.
  The region reads the feature matrix through two windows, so its one array is lent to the pipeline as two half
  shares and taken back whole at the exit.
-/
import proofs.«105418_j83786222010855_1_alg».proof.Proof.KernelRegion

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One array behind two windows: splitting its share and putting it back -/

section Shares

variable {c : Dev nD} (d : Dat τ (Elt F) Unit ℕ (UR sig nD τ) ℕ cfg0 c)
  (h0 : d.share 0 = fullShare.left) (h1 : d.share 1 = fullShare.right) (h2 : d.share 2 = fullShare)
  (h3 : d.share 3 = fullShare) (h4 : d.share 4 = fullShare)

/-- The four distinct buffers behind the five windows. -/
theorem image_arrRef : (Finset.univ.image (Pipeline.arrRef spec0) : Finset (Ref sig .tc)) = [main_v1, main_v5, main_v6, main_v7].toFinset := by
  decide

/-- The four buffers conjoined one by one. -/
theorem bigSep_arr {M : Type} [URA M] (Φ : Ref sig .tc → sProp M) :
    bigSep (Finset.univ.image (Pipeline.arrRef spec0)) Φ = iprop(Φ main_v1 ∗ Φ main_v5 ∗ Φ main_v6 ∗ Φ main_v7) :=
  bigSep_eq_bigSepL_of_eq [main_v1, main_v5, main_v6, main_v7] image_arrRef (by decide) Φ

include h0 h1 h2 h3 h4 in
/-- The buffers behind the arrays, each whole, make the pipeline's arrays: the feature matrix split in two halves. -/
theorem arrays_of_arrBufs (Vv : (b : Ref sig .tc) → Buf (Elt F) ((c : Thread nD τ).loc b))
    (G : (w : Fin cfg0.W) → Buf (Elt F) ((cfg0.win w).arr.view.loc (c.tc : Thread nD τ)))
    (g0 : G 0 = Vv main_v1) (g1 : G 1 = Vv main_v1) (g2 : G 2 = Vv main_v5) (g3 : G 3 = Vv main_v6) (g4 : G 4 = Vv main_v7) :
    (Pipeline.arrBufs spec0 c Vv : sProp 𝕄) ⊢ d.arrays G := by
  unfold Pipeline.arrBufs Dat.arrays
  rw [bigSep_arr, bigSep_W0]
  rw [h0, h1, h2, h3, h4, g0, g1, g2, g3, g4, (arr_whole0 0).set_eq_univ, (arr_whole0 2).set_eq_univ,
    (arr_whole0 3).set_eq_univ, (arr_whole0 4).set_eq_univ]
  iintro ⟨H1, H5, H6, H7⟩
  ihave H := (pointsTo_share (PosShare.mem_left_op_right fullShare)).1 $$ H1
  icases H with ⟨Hl, Hr⟩
  isplitl [Hl]; · iexact Hl
  isplitl [Hr]; · iexact Hr
  isplitl [H5]; · iexact H5
  isplitl [H6]; · iexact H6
  iexact H7

include h0 h1 h2 h3 h4 in
/-- The converse at the exit: the two halves hold the same contents and make the whole buffer again. -/
theorem arrBufs_of_arrays (Vv : (b : Ref sig .tc) → Buf (Elt F) ((c : Thread nD τ).loc b))
    (G : (w : Fin cfg0.W) → Buf (Elt F) ((cfg0.win w).arr.view.loc (c.tc : Thread nD τ)))
    (g0 : G 0 = Vv main_v1) (g1 : G 1 = Vv main_v1) (g2 : G 2 = Vv main_v5) (g3 : G 3 = Vv main_v6) (g4 : G 4 = Vv main_v7) :
    d.arrays G ⊢ (Pipeline.arrBufs spec0 c Vv : sProp 𝕄) := by
  unfold Pipeline.arrBufs Dat.arrays
  rw [bigSep_arr, bigSep_W0]
  rw [h0, h1, h2, h3, h4, g0, g1, g2, g3, g4, (arr_whole0 0).set_eq_univ, (arr_whole0 2).set_eq_univ,
    (arr_whole0 3).set_eq_univ, (arr_whole0 4).set_eq_univ]
  iintro ⟨Hl, Hr, H5, H6, H7⟩
  isplitl [Hl Hr]
  · iapply (pointsTo_share (PosShare.mem_left_op_right fullShare)).2
    isplitl [Hl] <;> iassumption
  isplitl [H5]; · iexact H5
  isplitl [H6]; · iexact H6
  iexact H7

end Shares

/-! ## The buffer contents at each boundary: a fold through the program -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the seven layout operations (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- The region's one output window, alone. -/
abbrev outSpec : Fin 1 → Pipeline.WinSpec sig grid0.rank := fun _ => spec0 4

/-- At the region's exit: the output array at what the grid points wrote back, every other buffer as entered. -/
def W2 (c : Dev nD) : Valuation τ sig (Elt F) :=
  Pipeline.withArrays outSpec c (W1 m ρ c) fun _ => (dat (V1 m ρ) c).arrAt 4 cfg0.N
theorem W2_out (c : Dev nD) : W2 m ρ c (Proc.devRef .tc main_v7) = (dat (V1 m ρ) c).arrAt 4 cfg0.N := by
  unfold W2; exact Pipeline.withArrays_arr outSpec (fun a b _ => Subsingleton.elim a b) c _ _ 0
theorem W2_of_ne (c : Dev nD) (b : Ref sig .tc) (hb : main_v7 ≠ b) :
    W2 m ρ c (Proc.devRef .tc b) = W1 m ρ c (Proc.devRef .tc b) := by
  unfold W2; exact Pipeline.withArrays_of_ne outSpec c _ _ b fun _ => hb
abbrev V2 : (c : Dev nD) → (b : Ref sig .tc) → Buf (Elt F) ((c : Thread nD τ).loc b) := fun c b => W2 m ρ c b
/-- After the seven closing operations. -/
abbrev W3 : Dev nD → Valuation τ sig (Elt F) := fun c => StableHlo.after hostOps1 (W2 m ρ c)

/-! ### The arguments end as launched: no operation writes one, and the region only reads the feature matrix -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

/-! ## The proof data family and the thread state -/

abbrev adm : (p : Fin 1) → (pcfgs (F := F) p).Adm := fun p => (cfgs p).toPCfg_adm
/-- The one pipeline's proof data at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (W3 m ρ c) ∗ ∃ r, prngReg c r)

/-! ## The region as a segment -/

/-- At the exit the two input windows on the feature matrix hold what they held at entry, and so do the label windows. -/
theorem arrAt_in_eq (c : Dev nD) (w : Fin cfg0.W) (hw : (cfg0.win w).isOut = false) (n : Nat) :
    (dat (V1 m ρ) c).arrAt w n = V1 m ρ c (Pipeline.arrRef spec0 w) :=
  ((dat (V1 m ρ) c).arrAt_in w hw n).trans (A_eq (V1 m ρ) c w)

set_option backward.isDefEq.respectTransparency.types false in
/-- The region over the thread state: entered from every unscoped buffer at `W1`, left at `W2`. -/
def reg : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((pdats m ρ 0 c).arrays ((pdats m ρ 0 c).arrAt · 0) ∗ Pipeline.unscopedRest spec0 c (V1 m ρ c)) := by
      rw [Pipeline.unscopedBufs_split₀ cfgs 0 winFacts₀0.arr_unscoped c (V1 m ρ c)]
      exact sep_mono (arrays_of_arrBufs (dat (V1 m ρ) c) rfl rfl rfl rfl rfl (V1 m ρ c) _ rfl rfl rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs (Ix := Unit) (Name := ℕ) (U := UR sig nD τ) (Lvl := ℕ) c (V2 m ρ c) : sProp 𝕄) := by
      rw [Pipeline.unscopedBufs_split₀ cfgs 0 winFacts₀0.arr_unscoped c (V2 m ρ c)]
      refine sep_mono (arrBufs_of_arrays (dat (V1 m ρ) c) rfl rfl rfl rfl rfl (V2 m ρ c) _ ?_ ?_ ?_ ?_ ?_) (Entails.of_eq ?_)
      · exact (arrAt_in_eq m ρ c 0 rfl _).trans (W2_of_ne m ρ c main_v1 (by decide)).symm
      · exact (arrAt_in_eq m ρ c 1 rfl _).trans (W2_of_ne m ρ c main_v1 (by decide)).symm
      · exact (arrAt_in_eq m ρ c 2 rfl _).trans (W2_of_ne m ρ c main_v5 (by decide)).symm
      · exact (arrAt_in_eq m ρ c 3 rfl _).trans (W2_of_ne m ρ c main_v6 (by decide)).symm
      · exact (W2_out m ρ c).symm
      · unfold Pipeline.unscopedRest
        exact bigSep_congr fun b hb => by
          rw [show V2 m ρ c b = V1 m ρ c b from W2_of_ne m ρ c b fun e =>
            (Finset.mem_sdiff.mp hb).2 (Finset.mem_image.mpr ⟨4, Finset.mem_univ _, e⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and
    every unscoped buffer ends at the fold's final contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the program runs to the end, faults nowhere, and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c), (h c _ (mem_uc main_arg1 (by decide))).trans (W3_main_arg1 m ρ c)⟩)
    (run_all m ρ)

/-- The same run with the result buffer named: it ends at the fold's final contents. -/
theorem run_result : θ_run defs (onTc (τ := τ) (main (F := F))) ⟨m, fun _ => 0, ρ⟩ (fun r => ∀ c : Dev nD,
      r.2.mem ((c.tc : Thread nD τ).loc main_v11) = W3 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v11 (by decide)), (h c _ (mem_uc main_arg0 (by decide))).trans (W3_main_arg0 m ρ c),
      (h c _ (mem_uc main_arg1 (by decide))).trans (W3_main_arg1 m ρ c)⟩)
    (run_all m ρ)

end Cert.Kernel.Run

end
-- ==== Proof.KernelIdealRegion.lean ====
/-
  One kernel region: sixteen problems times four tiles of 512 query rows. At grid point `t` the pipeline hands the
  body four input blocks — the tile's 512 feature rows, the problem's 2048 feature rows (both read from ONE array,
  the view-major feature matrix, held at two half shares), the tile's 512 labels as a column and the problem's
  2048 labels as a row — and the body stores one output block: the tile's 512 row values, a pure function of the
  four input blocks and of the tile's position. This module fixes that function (`out4`), runs the body once
  against it, and states what the pipeline needs of every grid point.
-/
import proofs.«105418_j83786222010855_1_alg».proof.Proof.Gen.KernelIdeal.Launch
import proofs.«105418_j83786222010855_1_alg».proof.Proof.Gen.KernelIdeal.Skeleton
import proofs.«105418_j83786222010855_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Idealize.ShloMosaic.Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (a window whose block index
    does not move between two points is not fetched again, and the body leaves it in place). -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the store take the whole block -/

abbrev rq : Rect S1x512x128 := Rect.unit (s := S1x512x128) ![0, 0, 0] S1x512x128.size inb_S1x512x128_S1x512x128_0_0_0
abbrev rk : Rect S1x2048x128 := Rect.unit (s := S1x2048x128) ![0, 0, 0] S1x2048x128.size inb_S1x2048x128_S1x2048x128_0_0_0
abbrev rc : Rect S1x512x1 := Rect.unit (s := S1x512x1) ![0, 0, 0] S1x512x1.size inb_S1x512x1_S1x512x1_0_0_0
abbrev rr : Rect S1x1x2048 := Rect.unit (s := S1x1x2048) ![0, 0, 0] S1x1x2048.size inb_S1x1x2048_S1x1x2048_0_0_0

/-! ## What the body leaves in the output window's buffer -/

/-- The output block after the body, from the four input blocks and the grid coordinates: its one store. -/
def out4 (i : grid0.Coords) (x0 : Vec F S1x512x128 .f32) (x1 : Vec F S1x2048x128 .f32) (x2 : Vec F S1x512x1 .i32) (x3 : Vec F S1x1x2048 .i32) :
    Vec F S1x512x1 .f32 :=
  View.canon [⟨rc, k0_pay1 (k0_pay3 (View.ld x0 rq) (View.ld x1 rk)) (k0_pay5 i (View.ld x0 rq) (View.ld x1 rk))
    (k0_pay6 i (View.ld x2 rc) (View.ld x3 rr)) (k0_pay7 i (View.ld x0 rq) (View.ld x1 rk) (View.ld x2 rc) (View.ld x3 rr))⟩]

/-- The store covers the block. -/
theorem cover4 (p0 : Vec F S1x512x1 .f32) (y : S1x512x1.Idx) :
    ∃ pc ∈ ([⟨rc, p0⟩] : List (View.Piece (Elt F) S1x512x1 .f32)), y ∈ pc.1.set :=
  View.cover_of_tiled [⟨rc, p0⟩] S1x512x1.size (by rfl) y

/-! ## The body's triple -/

set_option maxHeartbeats 4000000 in
/-- The body on whole staging memrefs, the inputs' at read contents and the output's at anything, runs to the
    continuation holding the inputs' as they were and the output's at `out4` of the inputs'. -/
theorem sound_kernel (c : Dev nD) (E : Set ℕ) (i : grid0.Coords)
    (arg2 : Memref sig .tc .vmem S1x512x128 .f32) (harg2 : arg2.IsWhole) (arg3 : Memref sig .tc .vmem S1x2048x128 .f32) (harg3 : arg3.IsWhole)
    (arg4 : Memref sig .tc .vmem S1x512x1 .i32) (harg4 : arg4.IsWhole) (arg5 : Memref sig .tc .vmem S1x1x2048 .i32) (harg5 : arg5.IsWhole)
    (arg6 : Memref sig .tc .vmem S1x512x1 .f32) (harg6 : arg6.IsWhole)
    (x0 : Vec F S1x512x128 .f32) (x1 : Vec F S1x2048x128 .f32) (x2 : Vec F S1x512x1 .i32) (x3 : Vec F S1x1x2048 .i32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out4 i x0 x1 x2 x3)) -∗ K ⟨⟩))
      ⊢ wp frame (wpE (defs₀ (F := F)) Variants.none c none) E (cc0__supcon_kernel i arg2 harg2 arg3 harg3 arg4 harg4 arg5 harg5 arg6 harg6) K := by
  simp only [cc0__supcon_kernel_eq_skeleton]; unfold cc0__supcon_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover4 _)

/-! ## The pipeline's proof data -/

/-- The proof data on core `c`: the arrays as the region finds them; after the body at point `t` each input's buffer
    at its block and the output's at `out4` of the input blocks; the untouched scoped rest and generator register as
    the invariant; nothing owed. The feature matrix is read through two windows: each holds half of its share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (grid0.coords t) (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = out4 (grid0.coords t) (iblk V c 0 t) (iblk V c 1 t) (iblk V c 2 t) (iblk V c 3 t) := by dsimp only [dat]

theorem before_0 (c : Dev nD) (t : Fin cfg0.N) (d) : (dat V c).before 0 t d = iblk V c 0 t :=
  before_in0_of V (dat V c) (A_eq V c 0) (after_0 V c) t d
theorem before_1 (c : Dev nD) (t : Fin cfg0.N) (d) : (dat V c).before 1 t d = iblk V c 1 t :=
  before_in1_of V (dat V c) (A_eq V c 1) (after_1 V c) t d
theorem before_2 (c : Dev nD) (t : Fin cfg0.N) (d) : (dat V c).before 2 t d = iblk V c 2 t :=
  before_in2_of V (dat V c) (A_eq V c 2) (after_2 V c) t d
theorem before_3 (c : Dev nD) (t : Fin cfg0.N) (d) : (dat V c).before 3 t d = iblk V c 3 t :=
  before_in3_of V (dat V c) (A_eq V c 3) (after_3 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' memrefs hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Run

end
-- ==== Proof.KernelIdealRun.lean ====
/-
  The whole program on a core: seven layout operations (the view-major feature matrix and the labels as a column and
  as a row), the kernel region, and seven operations after it (the row values summed, divided by 32768, negated).
  The run is followed buffer by buffer: what every unscoped buffer holds when the region is entered, when it is left
  (only the region's output array has changed: it holds what the grid points wrote back), and at the end.
  The region reads the feature matrix through two windows, so its one array is lent to the pipeline as two half
  shares and taken back whole at the exit.
-/
import proofs.«105418_j83786222010855_1_alg».proof.Proof.KernelIdealRegion

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Idealize.ShloMosaic.Named F]

local notation "𝕄" => MT nD τ sig Unit (Elt F) ℕ (UR sig nD τ) ℕ

/-! ## One array behind two windows: splitting its share and putting it back -/

section Shares

variable {c : Dev nD} (d : Dat τ (Elt F) Unit ℕ (UR sig nD τ) ℕ cfg0 c)
  (h0 : d.share 0 = fullShare.left) (h1 : d.share 1 = fullShare.right) (h2 : d.share 2 = fullShare)
  (h3 : d.share 3 = fullShare) (h4 : d.share 4 = fullShare)

/-- The four distinct buffers behind the five windows. -/
theorem image_arrRef : (Finset.univ.image (Pipeline.arrRef spec0) : Finset (Ref sig .tc)) = [main_v1, main_v5, main_v6, main_v7].toFinset := by
  decide

/-- The four buffers conjoined one by one. -/
theorem bigSep_arr {M : Type} [URA M] (Φ : Ref sig .tc → sProp M) :
    bigSep (Finset.univ.image (Pipeline.arrRef spec0)) Φ = iprop(Φ main_v1 ∗ Φ main_v5 ∗ Φ main_v6 ∗ Φ main_v7) :=
  bigSep_eq_bigSepL_of_eq [main_v1, main_v5, main_v6, main_v7] image_arrRef (by decide) Φ

include h0 h1 h2 h3 h4 in
/-- The buffers behind the arrays, each whole, make the pipeline's arrays: the feature matrix split in two halves. -/
theorem arrays_of_arrBufs (Vv : (b : Ref sig .tc) → Buf (Elt F) ((c : Thread nD τ).loc b))
    (G : (w : Fin cfg0.W) → Buf (Elt F) ((cfg0.win w).arr.view.loc (c.tc : Thread nD τ)))
    (g0 : G 0 = Vv main_v1) (g1 : G 1 = Vv main_v1) (g2 : G 2 = Vv main_v5) (g3 : G 3 = Vv main_v6) (g4 : G 4 = Vv main_v7) :
    (Pipeline.arrBufs spec0 c Vv : sProp 𝕄) ⊢ d.arrays G := by
  unfold Pipeline.arrBufs Dat.arrays
  rw [bigSep_arr, bigSep_W0]
  rw [h0, h1, h2, h3, h4, g0, g1, g2, g3, g4, (arr_whole0 0).set_eq_univ, (arr_whole0 2).set_eq_univ,
    (arr_whole0 3).set_eq_univ, (arr_whole0 4).set_eq_univ]
  iintro ⟨H1, H5, H6, H7⟩
  ihave H := (pointsTo_share (PosShare.mem_left_op_right fullShare)).1 $$ H1
  icases H with ⟨Hl, Hr⟩
  isplitl [Hl]; · iexact Hl
  isplitl [Hr]; · iexact Hr
  isplitl [H5]; · iexact H5
  isplitl [H6]; · iexact H6
  iexact H7

include h0 h1 h2 h3 h4 in
/-- The converse at the exit: the two halves hold the same contents and make the whole buffer again. -/
theorem arrBufs_of_arrays (Vv : (b : Ref sig .tc) → Buf (Elt F) ((c : Thread nD τ).loc b))
    (G : (w : Fin cfg0.W) → Buf (Elt F) ((cfg0.win w).arr.view.loc (c.tc : Thread nD τ)))
    (g0 : G 0 = Vv main_v1) (g1 : G 1 = Vv main_v1) (g2 : G 2 = Vv main_v5) (g3 : G 3 = Vv main_v6) (g4 : G 4 = Vv main_v7) :
    d.arrays G ⊢ (Pipeline.arrBufs spec0 c Vv : sProp 𝕄) := by
  unfold Pipeline.arrBufs Dat.arrays
  rw [bigSep_arr, bigSep_W0]
  rw [h0, h1, h2, h3, h4, g0, g1, g2, g3, g4, (arr_whole0 0).set_eq_univ, (arr_whole0 2).set_eq_univ,
    (arr_whole0 3).set_eq_univ, (arr_whole0 4).set_eq_univ]
  iintro ⟨Hl, Hr, H5, H6, H7⟩
  isplitl [Hl Hr]
  · iapply (pointsTo_share (PosShare.mem_left_op_right fullShare)).2
    isplitl [Hl] <;> iassumption
  isplitl [H5]; · iexact H5
  isplitl [H6]; · iexact H6
  iexact H7

end Shares

/-! ## The buffer contents at each boundary: a fold through the program -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the seven layout operations (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- The region's one output window, alone. -/
abbrev outSpec : Fin 1 → Pipeline.WinSpec sig grid0.rank := fun _ => spec0 4

/-- At the region's exit: the output array at what the grid points wrote back, every other buffer as entered. -/
def W2 (c : Dev nD) : Valuation τ sig (Elt F) :=
  Pipeline.withArrays outSpec c (W1 m ρ c) fun _ => (dat (V1 m ρ) c).arrAt 4 cfg0.N
theorem W2_out (c : Dev nD) : W2 m ρ c (Proc.devRef .tc main_v7) = (dat (V1 m ρ) c).arrAt 4 cfg0.N := by
  unfold W2; exact Pipeline.withArrays_arr outSpec (fun a b _ => Subsingleton.elim a b) c _ _ 0
theorem W2_of_ne (c : Dev nD) (b : Ref sig .tc) (hb : main_v7 ≠ b) :
    W2 m ρ c (Proc.devRef .tc b) = W1 m ρ c (Proc.devRef .tc b) := by
  unfold W2; exact Pipeline.withArrays_of_ne outSpec c _ _ b fun _ => hb
abbrev V2 : (c : Dev nD) → (b : Ref sig .tc) → Buf (Elt F) ((c : Thread nD τ).loc b) := fun c b => W2 m ρ c b
/-- After the seven closing operations. -/
abbrev W3 : Dev nD → Valuation τ sig (Elt F) := fun c => StableHlo.after hostOps1 (W2 m ρ c)

/-! ### The arguments end as launched: no operation writes one, and the region only reads the feature matrix -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

/-! ## The proof data family and the thread state -/

abbrev adm : (p : Fin 1) → (pcfgs (F := F) p).Adm := fun p => (cfgs p).toPCfg_adm
/-- The one pipeline's proof data at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (W3 m ρ c) ∗ ∃ r, prngReg c r)

/-! ## The region as a segment -/

/-- At the exit the two input windows on the feature matrix hold what they held at entry, and so do the label windows. -/
theorem arrAt_in_eq (c : Dev nD) (w : Fin cfg0.W) (hw : (cfg0.win w).isOut = false) (n : Nat) :
    (dat (V1 m ρ) c).arrAt w n = V1 m ρ c (Pipeline.arrRef spec0 w) :=
  ((dat (V1 m ρ) c).arrAt_in w hw n).trans (A_eq (V1 m ρ) c w)

set_option backward.isDefEq.respectTransparency.types false in
/-- The region over the thread state: entered from every unscoped buffer at `W1`, left at `W2`. -/
def reg : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((pdats m ρ 0 c).arrays ((pdats m ρ 0 c).arrAt · 0) ∗ Pipeline.unscopedRest spec0 c (V1 m ρ c)) := by
      rw [Pipeline.unscopedBufs_split₀ cfgs 0 winFacts₀0.arr_unscoped c (V1 m ρ c)]
      exact sep_mono (arrays_of_arrBufs (dat (V1 m ρ) c) rfl rfl rfl rfl rfl (V1 m ρ c) _ rfl rfl rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs (Ix := Unit) (Name := ℕ) (U := UR sig nD τ) (Lvl := ℕ) c (V2 m ρ c) : sProp 𝕄) := by
      rw [Pipeline.unscopedBufs_split₀ cfgs 0 winFacts₀0.arr_unscoped c (V2 m ρ c)]
      refine sep_mono (arrBufs_of_arrays (dat (V1 m ρ) c) rfl rfl rfl rfl rfl (V2 m ρ c) _ ?_ ?_ ?_ ?_ ?_) (Entails.of_eq ?_)
      · exact (arrAt_in_eq m ρ c 0 rfl _).trans (W2_of_ne m ρ c main_v1 (by decide)).symm
      · exact (arrAt_in_eq m ρ c 1 rfl _).trans (W2_of_ne m ρ c main_v1 (by decide)).symm
      · exact (arrAt_in_eq m ρ c 2 rfl _).trans (W2_of_ne m ρ c main_v5 (by decide)).symm
      · exact (arrAt_in_eq m ρ c 3 rfl _).trans (W2_of_ne m ρ c main_v6 (by decide)).symm
      · exact (W2_out m ρ c).symm
      · unfold Pipeline.unscopedRest
        exact bigSep_congr fun b hb => by
          rw [show V2 m ρ c b = V1 m ρ c b from W2_of_ne m ρ c b fun e =>
            (Finset.mem_sdiff.mp hb).2 (Finset.mem_image.mpr ⟨4, Finset.mem_univ _, e⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- From any memory with zero counters every weakly fair execution of the program terminates, nothing faulting, and
    every unscoped buffer ends at the fold's final contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the program runs to the end, faults nowhere, and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m ρ c), (h c _ (mem_uc main_arg1 (by decide))).trans (W3_main_arg1 m ρ c)⟩)
    (run_all m ρ)

/-- The same run with the result buffer named: it ends at the fold's final contents. -/
theorem run_result : θ_run defs (onTc (τ := τ) (main (F := F))) ⟨m, fun _ => 0, ρ⟩ (fun r => ∀ c : Dev nD,
      r.2.mem ((c.tc : Thread nD τ).loc main_v11) = W3 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v11 (by decide)), (h c _ (mem_uc main_arg0 (by decide))).trans (W3_main_arg0 m ρ c),
      (h c _ (mem_uc main_arg1 (by decide))).trans (W3_main_arg1 m ρ c)⟩)
    (run_all m ρ)

end Cert.KernelIdeal.Run

end
-- ==== Proof.Spec.lean ====
/-
  The mathematics both programs compute, stated once over plain index types.

  The input is sixteen independent problems. In problem `b` there are 1024 samples with 2 views of 128
  channels each, and one integer label per sample. The 2048 rows of a problem are ordered view-major: row
  `i` is view `i / 1024` of sample `i % 1024`. With `s i j` the inner product of rows `i` and `j`, a row's
  logits are `a j = s i j / T` (the reference divides by the temperature `T`; the kernel multiplies by the
  reciprocal `1 / T`, named exactly). With `M = max_j a j`, `S = ∑_{j ≠ i} exp (a j - M)` and the mask
  `μ j = [label j = label i] · [j ≠ i]`, the kernel's row value is

      (∑_j μ j · a j) / (∑_j μ j) - M - log S

  and the reference's is

      (∑_j μ j · ((a j - M) - log S)) / (∑_j μ j).

  The kernel's result is `-1 · ((∑_{b,i} row) / 32768)`, the reference's `(∑_b -1 · ((∑_i row) / 2048)) / 16`.
-/
import Idealize.ShloMosaic.PureOps.Ideal
import Idealize.ShloMosaic.Lib.ValueIdx

noncomputable section

namespace Cert.Spec

open Idealize.ShloMosaic

/-- The features by problem, sample, view and channel; the labels by problem and sample. -/
abbrev Feat : Type := Fin 16 → Fin 1024 → Fin 2 → Fin 128 → EReal
abbrev Labels : Type := Fin 16 → Fin 1024 → BitVec 32

/-- The shapes of the two argument arrays. -/
abbrev SX : Shape := ⟨4, ![16, 1024, 2, 128]⟩
abbrev SY : Shape := ⟨2, ![16, 1024]⟩

/-- An argument array's contents read by coordinates. -/
def featOf (X : SX.Idx → EReal) : Feat := fun b p v d => X (ValueIdx.ix4 b p v d)
def labelsOf (Y : SY.Idx → BitVec 32) : Labels := fun b p => Y (ValueIdx.ix2 b p)

/-- Row `i` of a problem is view `vw i` of sample `smp i`. -/
def smp (i : Fin 2048) : Fin 1024 := ⟨i.val % 1024, Nat.mod_lt _ (by norm_num)⟩
def vw (i : Fin 2048) : Fin 2 := ⟨i.val / 1024, by have := i.isLt; omega⟩

/-- A row of the view-major feature matrix. -/
def crow (x : Feat) (b : Fin 16) (i : Fin 2048) (d : Fin 128) : EReal := x b (smp i) (vw i) d

/-- The inner product of two rows. -/
def sim (x : Feat) (b : Fin 16) (i j : Fin 2048) : EReal := ∑ d : Fin 128, crow x b i d * crow x b j d

/-- The temperature as the reference's single-precision word 0x3D8F5C29 denotes it, and its exact reciprocal. -/
def temp : EReal := ((9395241 / 134217728 : ℝ) : EReal)
def invTemp : EReal := ((134217728 / 9395241 : ℝ) : EReal)

/-- A row's logits: the kernel's (a product with the reciprocal) and the reference's (a quotient). -/
def logitK (x : Feat) (b : Fin 16) (i : Fin 2048) : Fin 2048 → EReal := fun j => sim x b i j * invTemp
def logitR (x : Feat) (b : Fin 16) (i : Fin 2048) : Fin 2048 → EReal := fun j => Ideal.div (sim x b i j) temp

/-- One off the diagonal, zero on it. -/
def offDiag (i j : Fin 2048) : EReal := if i = j then 0 else 1

/-- One where two rows' samples carry the same label, zero elsewhere. -/
def same (y : Labels) (b : Fin 16) (i j : Fin 2048) : EReal := if y b (smp i) = y b (smp j) then 1 else 0

/-- The positives of row `i`: the same label, another row. -/
def msk (y : Labels) (b : Fin 16) (i j : Fin 2048) : EReal := same y b i j * offDiag i j

/-- A row's maximum, from the bottom element. -/
def rowMax (a : Fin 2048 → EReal) : EReal := (Finset.univ : Finset (Fin 2048)).fold max ⊥ a

/-- The sum of the shifted exponentials over the other rows. -/
def sumExp (a : Fin 2048 → EReal) (i : Fin 2048) : EReal := ∑ j : Fin 2048, Ideal.exp (a j - rowMax a) * offDiag i j

/-- The kernel's value of row `i` from that row's logits. -/
def rowK (a : Fin 2048 → EReal) (y : Labels) (b : Fin 16) (i : Fin 2048) : EReal :=
  Ideal.div (∑ j : Fin 2048, msk y b i j * a j) (∑ j : Fin 2048, msk y b i j) - rowMax a - Ideal.log (sumExp a i)

/-- The reference's value of row `i` from that row's logits. -/
def rowR (a : Fin 2048 → EReal) (y : Labels) (b : Fin 16) (i : Fin 2048) : EReal :=
  Ideal.div (∑ j : Fin 2048, msk y b i j * ((a j - rowMax a) - Ideal.log (sumExp a i))) (∑ j : Fin 2048, msk y b i j)

/-- The kernel's result: minus the mean over all 32768 rows at once. -/
def lossK (x : Feat) (y : Labels) : EReal :=
  ((-1 : ℝ) : EReal) * Ideal.div (∑ b : Fin 16, ∑ i : Fin 2048, rowK (logitK x b i) y b i) ((32768 : ℝ) : EReal)

/-- The reference's result: the mean over the problems of minus each problem's row mean. -/
def lossR (x : Feat) (y : Labels) : EReal :=
  Ideal.div (∑ b : Fin 16, ((-1 : ℝ) : EReal) * Ideal.div (∑ i : Fin 2048, rowR (logitR x b i) y b i) ((2048 : ℝ) : EReal)) ((16 : ℝ) : EReal)

end Cert.Spec

end
-- ==== Proof.KernelIdealPayload.lean ====
/-
  The output block at a row: the body's pure arithmetic read at one index of the 512 rows of a tile.
-/
import proofs.«105418_j83786222010855_1_alg».proof.Proof.KernelIdealRegion
import proofs.«105418_j83786222010855_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.ValueIdx

/-- A row's value from its logits `a`, its positives `mu` and the off-diagonal indicator `dg`. -/
def rowOf (a mu dg : Fin 2048 → EReal) : EReal :=
  Ideal.div (∑ j : Fin 2048, mu j * a j) (∑ j : Fin 2048, mu j) - Cert.Spec.rowMax a
    - Ideal.log (∑ j : Fin 2048, Ideal.exp (a j - Cert.Spec.rowMax a) * dg j)

/-- The specification's kernel row is `rowOf` of the label mask and the off-diagonal indicator. -/
theorem rowK_eq_rowOf (a : Fin 2048 → EReal) (y : Cert.Spec.Labels) (b : Fin 16) (i : Fin 2048) :
    Cert.Spec.rowK a y b i = rowOf a (Cert.Spec.msk y b i) (Cert.Spec.offDiag i) := rfl

/-! ## The logits tile -/

/-- The named reciprocal of the temperature is the specification's. -/
private theorem invTemp_named :
    Named.named (F := Ideal) Cert.KernelIdeal.κ "inv_temperature" (φ := .f32) 0x41649249#32 = Cert.Spec.invTemp :=
  IdealRules.named_const.ideal_named_scalar _ _ _ _ rfl

private theorem dot_lhs_0 (i : S512x2048.Idx) (q : dot_S512x128_S128x2048_S512x2048_1_0_0_1_n_n.contr.Idx) :
    (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide),
    dif_pos (show (0 : Fin S512x128.rank) ∈ dot_S512x128_S128x2048_S512x2048_1_0_0_1_n_n.lhsNonContracting by decide)]
  rfl
private theorem dot_lhs_1 (i : S512x2048.Idx) (q : dot_S512x128_S128x2048_S512x2048_1_0_0_1_n_n.contr.Idx) :
    (dot_S512x128_S128x2048_S512x2048_1_0_0_1_n_n.lhsIdx i q 1).val = (q ⟨0, by decide⟩).val :=
  dot_S512x128_S128x2048_S512x2048_1_0_0_1_n_n.lhsIdx_val_of_single rfl i q
private theorem dot_rhs_0 (i : S512x2048.Idx) (q : dot_S512x128_S128x2048_S512x2048_1_0_0_1_n_n.contr.Idx) :
    (dot_S512x128_S128x2048_S512x2048_1_0_0_1_n_n.rhsIdx i q 0).val = (q ⟨0, by decide⟩).val :=
  dot_S512x128_S128x2048_S512x2048_1_0_0_1_n_n.rhsIdx_val_of_single rfl i q
private theorem dot_rhs_1 (i : S512x2048.Idx) (q : dot_S512x128_S128x2048_S512x2048_1_0_0_1_n_n.contr.Idx) :
    (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide),
    dif_pos (show (1 : Fin S128x2048.rank) ∈ dot_S512x128_S128x2048_S512x2048_1_0_0_1_n_n.rhsNonContracting by decide)]
  rfl

/-- The product of a `[512, 128]` by a `[128, 2048]` matrix into the zero accumulator, at an index. -/
private theorem matmul_at (A : FVec Ideal S512x128 .bf16) (B : FVec Ideal S128x2048 .bf16) (r : Fin 512) (j : Fin 2048) :
    matmul dot_S512x128_S128x2048_S512x2048_1_0_0_1_n_n none A B (constant (F := Ideal) S512x2048 .f32 0x00000000#32) (ix2 r j)
      = ∑ d : Fin 128, A (ix2 r d) * B (ix2 d j) := by
  simp only [matmul]
  rw [Ideal.matmul_constant_zero_apply,
    ← Equiv.sum_comp (ValueIdx.contrEquiv1 dot_S512x128_S128x2048_S512x2048_1_0_0_1_n_n 128 rfl rfl).symm]
  refine Finset.sum_congr rfl fun k _ => ?_
  have hk := ValueIdx.contrEquiv1_symm_val dot_S512x128_S128x2048_S512x2048_1_0_0_1_n_n 128 rfl rfl k
  have el : dot_S512x128_S128x2048_S512x2048_1_0_0_1_n_n.lhsIdx (ix2 r j)
      ((ValueIdx.contrEquiv1 dot_S512x128_S128x2048_S512x2048_1_0_0_1_n_n 128 rfl rfl).symm k) = ix2 r k :=
    funext fun a => Fin.ext (by
      match a with
      | ⟨0, _⟩ => exact dot_lhs_0 _ _
      | ⟨1, _⟩ => exact (dot_lhs_1 _ _).trans hk)
  have er : dot_S512x128_S128x2048_S512x2048_1_0_0_1_n_n.rhsIdx (ix2 r j)
      ((ValueIdx.contrEquiv1 dot_S512x128_S128x2048_S512x2048_1_0_0_1_n_n 128 rfl rfl).symm k) = ix2 k j :=
    funext fun a => Fin.ext (by
      match a with
      | ⟨0, _⟩ => exact (dot_rhs_0 _ _).trans hk
      | ⟨1, _⟩ => exact dot_rhs_1 _ _)
  rw [el, er]

/-- The logits tile at row `r`, column `j`: the inner product of the tile's row with the problem's row, times the
    reciprocal temperature. -/
private theorem pay2_at (v0 : Vec Ideal S1x512x128 .f32) (v2 : Vec Ideal S1x2048x128 .f32) (r : Fin 512) (j : Fin 2048) :
    k0_pay2 (F := Ideal) v0 v2 (ix2 r j) = (∑ d : Fin 128, v0 (ix3 0 r d) * v2 (ix3 0 j d)) * Cert.Spec.invTemp := by
  unfold k0_pay2
  refine (mulf_apply _ _ _).trans ?_
  rw [broadcast_apply, invTemp_named, matmul_at]
  congr 1
  refine Finset.sum_congr rfl fun d _ => ?_
  rw [truncf_apply, transpose_ix2_apply, truncf_apply, shapeCast_1ab_ab_apply, shapeCast_1ab_ab_apply]

/-! ## The keepdims layout operations at coordinates -/

/-- A `[a]` vector cast to a column `[a, 1]` reads, at `(p, u)`, the operand at `p`. -/
private theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the operand's entry of row `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a lane reduction of a `[512, 2048]` tile inserts: row `r`, lane `k`. -/
private theorem lift_at (r : Fin 512) (k : Fin 2048) :
    reduces_S512x2048_S512.lift (ix1 r) k = ix2 r k :=
  funext fun a => Fin.ext (by
    match a with
    | ⟨0, _⟩ => rfl
    | ⟨1, _⟩ => rfl)

/-- A lane sum of a `[512, 2048]` tile, kept as a column, at row `r`. -/
private theorem laneSum_at (v : FVec Ideal S512x2048 .f32) (r : Fin 512) :
    shapeCast S512x1 (multiReduction (F := Ideal) .add [1] S512 v 0x00000000#32 reduces_S512x2048_S512 (.inl rfl) rfl)
      shapeCasts_S512_S512x1 (ix2 r 0) = ∑ k : Fin 2048, v (ix2 r k) := by
  refine (shapeCast_a_a1_apply _ shapeCasts_S512_S512x1 r 0).trans ?_
  refine (Ideal.multiReduction_add_single v _ reduces_S512x2048_S512 (.inl rfl) rfl (ix1 r)).trans ?_
  exact Finset.sum_congr rfl fun k _ => congrArg v (lift_at r k)

/-- A lane maximum of a `[512, 2048]` tile, kept as a column, at row `r`: the row's maximum from the bottom element. -/
private theorem laneMax_at (v : FVec Ideal S512x2048 .f32) (r : Fin 512) :
    shapeCast S512x1 (multiReduction (F := Ideal) .maximumf [1] S512 v 0xFF800000#32 reduces_S512x2048_S512 (.inl rfl) rfl)
      shapeCasts_S512_S512x1 (ix2 r 0) = Cert.Spec.rowMax (fun k => v (ix2 r k)) := by
  refine (shapeCast_a_a1_apply _ shapeCasts_S512_S512x1 r 0).trans ?_
  refine (Ideal.multiReduction_maximumf_single v _ reduces_S512x2048_S512 (.inl rfl) rfl (ix1 r)).trans ?_
  unfold Cert.Spec.rowMax
  have hb : FloatOps.ofBits (F := Ideal) .f32 0xFF800000#32 = (⊥ : EReal) := by
    simp [Ideal.ofBits, Ideal.ieee]
  show Finset.fold max (FloatOps.ofBits (F := Ideal) .f32 0xFF800000#32) (v ∘ reduces_S512x2048_S512.lift (ix1 r)) Finset.univ = _
  rw [hb]
  congr 1
  funext k
  exact congrArg v (lift_at r k)

/-! ## The two indicators -/

/-- A one-bit word widened to 32 bits and converted: one when the bit is set, else zero. -/
private theorem sitofp_bit (c : Bool) :
    FloatOps.sitofp (F := Ideal) .f32 ((BitVec.ofBool c).setWidth 32) = if c then (1 : EReal) else 0 := by
  cases c
  · show (((BitVec.toInt (0#32) : ℤ) : ℝ) : EReal) = 0
    simp
  · show (((BitVec.toInt (1#32) : ℤ) : ℝ) : EReal) = 1
    simp

/-- Two small naturals are equal when their 32-bit words are. -/
private theorem word_eq_iff (a b : ℕ) (ha : a < 2 ^ 32) (hb : b < 2 ^ 32) : BitVec.ofNat 32 a = BitVec.ofNat 32 b ↔ a = b := by
  constructor
  · intro h
    have := congrArg BitVec.toNat h
    simp only [BitVec.toNat_ofNat] at this
    omega
  · rintro rfl; rfl

/-- The off-diagonal indicator at row `r` of the tile, column `j`: zero where the column is the row's own position in the
    problem, one elsewhere. -/
private theorem pay4_at (i : grid0.Coords) (r : Fin 512) (j : Fin 2048) :
    k0_pay4 (F := Ideal) i (ix2 r j) = if (i 1).val * 512 + r.val = j.val then (0 : EReal) else 1 := by
  have hi : (i 1).val < 4 := (i 1).isLt
  have hr := r.isLt
  have hj := j.isLt
  unfold k0_pay4
  refine (sitofp_apply _ _).trans ?_
  rw [extui_apply]
  show FloatOps.sitofp (F := Ideal) .f32 ((IntOp.cmpi .ne (IntOp.addi (Scalar.muli (BitVec.ofNat 32 (i 1).val) 512#32) (iota .tc S512x2048 32 [0] iota_S512x2048_d0_w32 (ix2 r j))) (iota .tc S512x2048 32 [1] iota_S512x2048_d1_w32 (ix2 r j))).setWidth 32) = _
  rw [iota_single_apply, iota_single_apply]
  have hx : IntOp.addi (Scalar.muli (BitVec.ofNat 32 (i 1).val) 512#32) (BitVec.ofNat 32 ((ix2 r j : S512x2048.Idx) 0).val)
      = BitVec.ofNat 32 ((i 1).val * 512 + r.val) := by
    show BitVec.ofNat 32 (i 1).val * BitVec.ofNat 32 512 + BitVec.ofNat 32 r.val = _
    rw [← BitVec.ofNat_mul, ← BitVec.ofNat_add]
  rw [hx]
  show FloatOps.sitofp (F := Ideal) .f32 ((BitVec.ofBool (BitVec.ofNat 32 ((i 1).val * 512 + r.val) != BitVec.ofNat 32 j.val)).setWidth 32) = _
  rw [sitofp_bit]
  by_cases h : (i 1).val * 512 + r.val = j.val
  · rw [if_pos h, h]; simp
  · rw [if_neg h]
    have : BitVec.ofNat 32 ((i 1).val * 512 + r.val) ≠ BitVec.ofNat 32 j.val := fun e =>
      h ((word_eq_iff _ _ (by omega) (by omega)).1 e)
    simp [this]

/-- The positives at row `r` of the tile, column `j`: one where the two labels agree, times the off-diagonal indicator. -/
private theorem pay6_at (i : grid0.Coords) (v4 : Vec Ideal S1x512x1 .i32) (v6 : Vec Ideal S1x1x2048 .i32) (r : Fin 512) (j : Fin 2048) :
    k0_pay6 (F := Ideal) i v4 v6 (ix2 r j)
      = (if v4 (ix3 0 r 0) = v6 (ix3 0 0 j) then (1 : EReal) else 0) * (if (i 1).val * 512 + r.val = j.val then (0 : EReal) else 1) := by
  unfold k0_pay6
  refine (mulf_apply _ _ _).trans ?_
  rw [pay4_at]
  congr 1
  refine (sitofp_apply _ _).trans ?_
  rw [extui_apply]
  show FloatOps.sitofp (F := Ideal) .f32 ((IntOp.cmpi .eq
      (broadcastTo S512x2048 (shapeCast S512x1 v4 shapeCasts_S1x512x1_S512x1) broadcasts_S512x1_S512x2048 (ix2 r j))
      (broadcastTo S512x2048 (shapeCast S1x2048 v6 shapeCasts_S1x1x2048_S1x2048) broadcasts_S1x2048_S512x2048 (ix2 r j))).setWidth 32) = _
  rw [broadcastTo_a1_ab_apply, broadcastTo_1b_ab_apply, shapeCast_1ab_ab_apply, shapeCast_1ab_ab_apply]
  show FloatOps.sitofp (F := Ideal) .f32 ((BitVec.ofBool (v4 (ix3 0 r 0) == v6 (ix3 0 0 j))).setWidth 32) = _
  rw [sitofp_bit]
  by_cases h : v4 (ix3 0 r 0) = v6 (ix3 0 0 j)
  · rw [if_pos h, h]; simp
  · rw [if_neg h]; simp [h]

/-! ## The row quantities -/

/-- The row maximum at row `r`: the maximum of that row's logits. -/
private theorem pay3_at (v0 : Vec Ideal S1x512x128 .f32) (v2 : Vec Ideal S1x2048x128 .f32) (r : Fin 512) :
    k0_pay3 (F := Ideal) v0 v2 (ix2 r 0)
      = Cert.Spec.rowMax (fun j => (∑ d : Fin 128, v0 (ix3 0 r d) * v2 (ix3 0 j d)) * Cert.Spec.invTemp) := by
  unfold k0_pay3
  refine (laneMax_at _ r).trans ?_
  exact congrArg Cert.Spec.rowMax (funext fun j => pay2_at v0 v2 r j)

/-- The sum of the shifted exponentials over the other rows, at row `r`. -/
private theorem pay5_at (i : grid0.Coords) (v0 : Vec Ideal S1x512x128 .f32) (v2 : Vec Ideal S1x2048x128 .f32) (r : Fin 512) :
    k0_pay5 (F := Ideal) i v0 v2 (ix2 r 0)
      = ∑ j : Fin 2048, Ideal.exp ((∑ d : Fin 128, v0 (ix3 0 r d) * v2 (ix3 0 j d)) * Cert.Spec.invTemp
          - Cert.Spec.rowMax (fun j => (∑ d : Fin 128, v0 (ix3 0 r d) * v2 (ix3 0 j d)) * Cert.Spec.invTemp))
          * (if (i 1).val * 512 + r.val = j.val then (0 : EReal) else 1) := by
  unfold k0_pay5
  refine (laneSum_at _ r).trans ?_
  refine Finset.sum_congr rfl fun j _ => ?_
  refine (mulf_apply _ _ _).trans ?_
  rw [pay4_at]
  congr 1
  show Ideal.exp (k0_pay2 (F := Ideal) v0 v2 (ix2 r j)
    - broadcastTo S512x2048 (k0_pay3 (F := Ideal) v0 v2) broadcasts_S512x1_S512x2048 (ix2 r j)) = _
  rw [broadcastTo_a1_ab_apply, pay3_at, pay2_at]

/-- The sum of the positives' logits, at row `r`. -/
private theorem pay7_at (i : grid0.Coords) (v0 : Vec Ideal S1x512x128 .f32) (v2 : Vec Ideal S1x2048x128 .f32)
    (v4 : Vec Ideal S1x512x1 .i32) (v6 : Vec Ideal S1x1x2048 .i32) (r : Fin 512) :
    k0_pay7 (F := Ideal) i v0 v2 v4 v6 (ix2 r 0)
      = ∑ j : Fin 2048, ((if v4 (ix3 0 r 0) = v6 (ix3 0 0 j) then (1 : EReal) else 0) * (if (i 1).val * 512 + r.val = j.val then (0 : EReal) else 1))
          * ((∑ d : Fin 128, v0 (ix3 0 r d) * v2 (ix3 0 j d)) * Cert.Spec.invTemp) := by
  unfold k0_pay7
  refine (laneSum_at _ r).trans ?_
  refine Finset.sum_congr rfl fun j _ => ?_
  refine (mulf_apply _ _ _).trans ?_
  rw [pay6_at, pay2_at]

/-- The stored block at row `r`, from the four row quantities. -/
private theorem pay1_at (v15 v29 : FVec Ideal S512x1 .f32) (v35 : FVec Ideal S512x2048 .f32) (v38 : FVec Ideal S512x1 .f32) (r : Fin 512) :
    k0_pay1 (F := Ideal) v15 v29 v35 v38 (ix3 0 r 0)
      = Ideal.div (v38 (ix2 r 0)) (∑ k : Fin 2048, v35 (ix2 r k)) - v15 (ix2 r 0) - Ideal.log (v29 (ix2 r 0)) := by
  unfold k0_pay1
  refine (shapeCast_ab_1ab_apply _ shapeCasts_S512x1_S1x512x1 0 r 0).trans ?_
  refine (subf_apply _ _ _).trans ?_
  congr 1
  refine (subf_apply _ _ _).trans ?_
  congr 1
  refine (divf_apply _ _ _).trans ?_
  congr 1
  exact laneSum_at v35 r

/-! ## The output block at a row -/

private theorem zero3 : (![0, 0, 0] : Fin 3 → Nat) = fun _ => 0 := funext fun a => by fin_cases a <;> rfl

/-- Row `r` of the output block of the tile at grid coordinates `i`, from the four input blocks: the logits are the
    inner products of the tile's row `r` with the problem's 2048 rows times the reciprocal temperature; a column `j`
    is a positive when the two labels agree and `j` is not the row itself, whose position in the problem is
    `512 * (i 1) + r`. -/
theorem out4_at (i : grid0.Coords) (x0 : Vec Ideal S1x512x128 .f32) (x1 : Vec Ideal S1x2048x128 .f32)
    (x2 : Vec Ideal S1x512x1 .i32) (x3 : Vec Ideal S1x1x2048 .i32) (r : Fin 512) :
    Cert.KernelIdeal.Run.out4 (F := Ideal) i x0 x1 x2 x3 (ix3 0 r 0)
      = rowOf (fun j => (∑ d : Fin 128, x0 (ix3 0 r d) * x1 (ix3 0 j d)) * Cert.Spec.invTemp)
          (fun j => (if x2 (ix3 0 r 0) = x3 (ix3 0 0 j) then (1 : EReal) else 0) * (if (i 1).val * 512 + r.val = j.val then (0 : EReal) else 1))
          (fun j => if (i 1).val * 512 + r.val = j.val then (0 : EReal) else 1) := by
  unfold Cert.KernelIdeal.Run.out4
  rw [View.canon_unit_zero zero3]
  simp only [View.ld_unit_zero (S := S1x512x128) zero3, View.ld_unit_zero (S := S1x2048x128) zero3,
    View.ld_unit_zero (S := S1x512x1) zero3, View.ld_unit_zero (S := S1x1x2048) zero3]
  rw [pay1_at, pay7_at, pay3_at, pay5_at]
  unfold rowOf
  simp only [pay6_at]

end Cert.KernelIdeal.KValue

end
-- ==== Proof.KernelIdealPrefix.lean ====
/-
  What the region finds in its three input arrays: the seven layout operations before it, read at an index.
  The feature matrix is the view-major rearrangement of the features; the two label arrays repeat the labels once per view.
-/
import proofs.«105418_j83786222010855_1_alg».proof.Proof.KernelIdealRun
import proofs.«105418_j83786222010855_1_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The two argument arrays as launched, read by coordinates. -/
abbrev xs : Cert.Spec.Feat := Cert.Spec.featOf (m ((c.tc : Thread nD τ).loc main_arg0))
abbrev ys : Cert.Spec.Labels := Cert.Spec.labelsOf (m ((c.tc : Thread nD τ).loc main_arg1))

/-! ## The seven layout operations as terms of the launched arrays -/

/-- The feature matrix the region enters with: the features with the sample and view axes exchanged, then the view
    and sample axes merged into one row axis. -/
theorem V1_v1_eq :
    (Cert.KernelIdeal.Run.V1 (F := Ideal) m ρ c main_v1 : S16x2048x128.Idx → EReal)
      = shapeCast _ (transpose S16x2x1024x128 [0, 2, 1, 3] (m ((c.tc : Thread nD τ).loc main_arg0))
          transposes_S16x1024x2x128_S16x2x1024x128_0_2_1_3) shapeCasts_S16x2x1024x128_S16x2048x128 := by
  dsimp only [Cert.KernelIdeal.Run.V1, Cert.KernelIdeal.Run.W1, Cert.KernelIdeal.Run.W0]
  show StableHlo.after hostOps0 _ (Proc.devRef .tc main_v1) = _
  after_results
  rfl

/-- The labels repeated once per view and laid out as one row of 2048 per problem: the labels given two unit axes,
    the second of them stretched to the two views, and the view and sample axes merged. -/
def lab2 : S16x2048.Idx → BitVec 32 :=
  shapeCast _ (broadcastInDim S1x16x2x1024 ![0, 1, 2, 3] bcast_S1x16x1x1024_S1x16x2x1024_0_1_2_3
    (shapeCast _ (m ((c.tc : Thread nD τ).loc main_arg1)) shapeCasts_S16x1024_S1x16x1x1024)) shapeCasts_S1x16x2x1024_S16x2048

/-- The label column the region enters with: the repeated labels with a trailing unit axis. -/
theorem V1_v5_eq :
    (Cert.KernelIdeal.Run.V1 (F := Ideal) m ρ c main_v5 : S16x2048x1.Idx → BitVec 32)
      = broadcastInDim S16x2048x1 ![0, 1] bcast_S16x2048_S16x2048x1_0_1 (lab2 m c) := by
  dsimp only [Cert.KernelIdeal.Run.V1, Cert.KernelIdeal.Run.W1, Cert.KernelIdeal.Run.W0]
  show StableHlo.after hostOps0 _ (Proc.devRef .tc main_v5) = _
  after_results
  rfl

/-- The label row the region enters with: the repeated labels with a unit axis in the middle. -/
theorem V1_v6_eq :
    (Cert.KernelIdeal.Run.V1 (F := Ideal) m ρ c main_v6 : S16x1x2048.Idx → BitVec 32)
      = broadcastInDim S16x1x2048 ![0, 2] bcast_S16x2048_S16x1x2048_0_2 (lab2 m c) := by
  dsimp only [Cert.KernelIdeal.Run.V1, Cert.KernelIdeal.Run.W1, Cert.KernelIdeal.Run.W0]
  show StableHlo.after hostOps0 _ (Proc.devRef .tc main_v6) = _
  after_results
  rfl

/-! ## The terms read at an index -/

/-- Row `i` of the merged axis sits at row-major position `(i / 1024) * 1024 + i % 1024` of the (view, sample) pair,
    so the repeated labels at `(b, i)` are the label of sample `i % 1024` of problem `b`. -/
theorem lab2_apply (b : Fin 16) (i : Fin 2048) :
    lab2 m c (ix2 b i) = ys m c b (Cert.Spec.smp i) := by
  have hi : i.val < 2048 := i.isLt
  unfold lab2
  rw [shapeCast_apply _ shapeCasts_S1x16x2x1024_S16x2048 (ix2 b i)
    (ix4 (0 : Fin 1) b (Cert.Spec.vw i) (Cert.Spec.smp i))
    (by rewrite [Shape.rowMajor_val_four, Shape.rowMajor_val_two]
        show (((0 : Nat) * 16 + b.val) * 2 + i.val / 1024) * 1024 + i.val % 1024 = b.val * 2048 + i.val
        omega)]
  rw [broadcastInDim_apply _ bcast_S1x16x1x1024_S1x16x2x1024_0_1_2_3 _
    (ix4 (0 : Fin 1) b (Cert.Spec.vw i) (Cert.Spec.smp i))
    (ix4 (0 : Fin 1) b (0 : Fin 1) (Cert.Spec.smp i))
    (fun a => match a with
      | ⟨0, _⟩ => by show (0 : Nat) = if (1 : Nat) = 1 then 0 else 0; rw [if_pos rfl]
      | ⟨1, _⟩ => by show b.val = if (16 : Nat) = 1 then 0 else b.val; rw [if_neg (by decide)]
      | ⟨2, _⟩ => by show (0 : Nat) = if (1 : Nat) = 1 then 0 else (Cert.Spec.vw i).val; rw [if_pos rfl]
      | ⟨3, _⟩ => by show (Cert.Spec.smp i).val = if (1024 : Nat) = 1 then 0 else (Cert.Spec.smp i).val; rw [if_neg (by decide)])]
  rw [shapeCast_apply _ shapeCasts_S16x1024_S1x16x1x1024 (ix4 (0 : Fin 1) b (0 : Fin 1) (Cert.Spec.smp i))
    (ix2 b (Cert.Spec.smp i))
    (by rewrite [Shape.rowMajor_val_four, Shape.rowMajor_val_two]
        show b.val * 1024 + i.val % 1024 = (((0 : Nat) * 16 + b.val) * 1 + 0) * 1024 + i.val % 1024
        omega)]
  rfl

/-- The view-major feature matrix: row `i` of problem `b` is view `i / 1024` of sample `i % 1024`. -/
theorem V1_v1 (b : Fin 16) (i : Fin 2048) (d : Fin 128) :
    Cert.KernelIdeal.Run.V1 (F := Ideal) m ρ c main_v1 (ix3 b i d) = Cert.Spec.crow (xs m c) b i d := by
  have hi : i.val < 2048 := i.isLt
  have e := congrFun (V1_v1_eq m ρ c) (ix3 b i d)
  refine e.trans ?_
  rw [shapeCast_apply _ shapeCasts_S16x2x1024x128_S16x2048x128 (ix3 b i d)
    (ix4 b (Cert.Spec.vw i) (Cert.Spec.smp i) d)
    (by rewrite [Shape.rowMajor_val_four, Shape.rowMajor_val_three]
        show ((b.val * 2 + i.val / 1024) * 1024 + i.val % 1024) * 128 + d.val = (b.val * 2048 + i.val) * 128 + d.val
        omega)]
  rw [transpose_apply [0, 2, 1, 3] _ transposes_S16x1024x2x128_S16x2x1024x128_0_2_1_3
    (ix4 b (Cert.Spec.vw i) (Cert.Spec.smp i) d) (ix4 b (Cert.Spec.smp i) (Cert.Spec.vw i) d)
    (fun a => match a with
      | ⟨0, _⟩ => rfl
      | ⟨1, _⟩ => rfl
      | ⟨2, _⟩ => rfl
      | ⟨3, _⟩ => rfl)]
  rfl

/-- The labels as a column: row `i` carries the label of sample `i % 1024`. -/
theorem V1_v5 (b : Fin 16) (i : Fin 2048) :
    Cert.KernelIdeal.Run.V1 (F := Ideal) m ρ c main_v5 (ix3 b i 0) = ys m c b (Cert.Spec.smp i) := by
  have e := congrFun (V1_v5_eq m ρ c) (ix3 b i 0)
  refine e.trans ?_
  rw [broadcastInDim_apply _ bcast_S16x2048_S16x2048x1_0_1 _ (ix3 b i (0 : Fin 1)) (ix2 b i)
    (fun a => match a with
      | ⟨0, _⟩ => by show b.val = if (16 : Nat) = 1 then 0 else b.val; rw [if_neg (by decide)]
      | ⟨1, _⟩ => by show i.val = if (2048 : Nat) = 1 then 0 else i.val; rw [if_neg (by decide)])]
  exact lab2_apply m c b i

/-- The labels as a row. -/
theorem V1_v6 (b : Fin 16) (j : Fin 2048) :
    Cert.KernelIdeal.Run.V1 (F := Ideal) m ρ c main_v6 (ix3 b 0 j) = ys m c b (Cert.Spec.smp j) := by
  have e := congrFun (V1_v6_eq m ρ c) (ix3 b 0 j)
  refine e.trans ?_
  rw [broadcastInDim_apply _ bcast_S16x2048_S16x1x2048_0_2 _ (ix3 b (0 : Fin 1) j) (ix2 b j)
    (fun a => match a with
      | ⟨0, _⟩ => by show b.val = if (16 : Nat) = 1 then 0 else b.val; rw [if_neg (by decide)]
      | ⟨1, _⟩ => by show j.val = if (2048 : Nat) = 1 then 0 else j.val; rw [if_neg (by decide)])]
  exact lab2_apply m c b j

end Cert.KernelIdeal.KValue

end
-- ==== Proof.KernelIdealBlocks.lean ====
/-
  From blocks to the array: the region's output array after all 64 grid points, read at a row.
  Grid point (b, q) writes rows 512·q … 512·q + 511 of problem b, each the row value of the specification.
-/
import proofs.«105418_j83786222010855_1_alg».proof.Proof.KernelIdealRun
import proofs.«105418_j83786222010855_1_alg».proof.Proof.KernelIdealPayload
import proofs.«105418_j83786222010855_1_alg».proof.Proof.KernelIdealPrefix
import proofs.«105418_j83786222010855_1_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The grid and the index maps -/

/-- The printed index maps and the grid's coordinates, decided once over the 64 points: point `t` is tile `t % 4` of
    problem `t / 4`; the tile windows sit at block `(t / 4, t % 4, 0)`, the whole-problem windows at `(t / 4, 0, 0)`. -/
theorem idx_facts : ∀ t : Fin cfg0.N,
    (grid0.coords t 0).val = t.val / 4 ∧ (grid0.coords t 1).val = t.val % 4
    ∧ win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = t.val % 4 ∧ win0_4.index t (2 : Fin 3) = 0 :=
  (by decide +kernel : ∀ t : Fin grid0.N, _)

/-- Row `r` of tile `q` is row `512 q + r` of the problem. -/
def rowIdx (q : Fin 4) (r : Fin 512) : Fin 2048 := ⟨q.val * 512 + r.val, by have := q.isLt; have := r.isLt; omega⟩

/-! ## One grid point -/

/-- At a point whose four input blocks are the problem's feature rows and labels where the windows' rectangles say,
    row `r` of the output block is the specification's row value of row `512 q + r`. -/
theorem out4_point (i : grid0.Coords) (x0 : Vec Ideal S1x512x128 .f32) (x1 : Vec Ideal S1x2048x128 .f32)
    (x2 : Vec Ideal S1x512x1 .i32) (x3 : Vec Ideal S1x1x2048 .i32) (xf : Cert.Spec.Feat) (yl : Cert.Spec.Labels)
    (b : Fin 16) (q : Fin 4) (hq : (i 1).val = q.val)
    (h0 : ∀ (r : Fin 512) (d : Fin 128), x0 (ix3 0 r d) = Cert.Spec.crow xf b (rowIdx q r) d)
    (h1 : ∀ (j : Fin 2048) (d : Fin 128), x1 (ix3 0 j d) = Cert.Spec.crow xf b j d)
    (h2 : ∀ r : Fin 512, x2 (ix3 0 r 0) = yl b (Cert.Spec.smp (rowIdx q r)))
    (h3 : ∀ j : Fin 2048, x3 (ix3 0 0 j) = yl b (Cert.Spec.smp j))
    (r : Fin 512) :
    Cert.KernelIdeal.Run.out4 (F := Ideal) i x0 x1 x2 x3 (ix3 0 r 0)
      = Cert.Spec.rowK (Cert.Spec.logitK xf b (rowIdx q r)) yl b (rowIdx q r) := by
  have hd : ∀ j : Fin 2048,
      (if (i 1).val * 512 + r.val = j.val then (0 : EReal) else 1) = Cert.Spec.offDiag (rowIdx q r) j := by
    intro j
    unfold Cert.Spec.offDiag
    refine if_congr ?_ rfl rfl
    rw [hq, Fin.ext_iff]
    exact Iff.rfl
  have ha : (fun j : Fin 2048 => (∑ d : Fin 128, x0 (ix3 0 r d) * x1 (ix3 0 j d)) * Cert.Spec.invTemp)
      = Cert.Spec.logitK xf b (rowIdx q r) := by
    funext j
    simp only [h0, h1]
    rfl
  have hmu : (fun j : Fin 2048 => (if x2 (ix3 0 r 0) = x3 (ix3 0 0 j) then (1 : EReal) else 0)
        * (if (i 1).val * 512 + r.val = j.val then (0 : EReal) else 1))
      = Cert.Spec.msk yl b (rowIdx q r) := by
    funext j
    rw [hd, h2, h3]
    rfl
  rw [out4_at, rowK_eq_rowOf, ha, hmu, funext hd]

/-! ## Every point writes its block of one function of the arguments -/

/-- The output array after the region: at row `i` of problem `b` the specification's kernel row value. -/
def G : S16x2048x1.Idx → Elt Ideal .f32 :=
  fun i => Cert.Spec.rowK (Cert.Spec.logitK (xs m c) (i 0) (i 1)) (ys m c) (i 0) (i 1)

/-- What point `t` writes back is block `t` of `G`. -/
theorem flushed_eq (t : Fin cfg0.N) :
    (Cert.KernelIdeal.Run.dat (Cert.KernelIdeal.Run.V1 (F := Ideal) m ρ) c).flushed 4 t
      = ((cfg0.win 4).blk t).view.read (Elt Ideal) (G m c) := by
  show (cfg0.win 4).cut (grid0.coords t) ((Cert.KernelIdeal.Run.dat (Cert.KernelIdeal.Run.V1 (F := Ideal) m ρ) c).after 4 t) = _
  rw [Cert.KernelIdeal.Run.after_4]
  obtain ⟨c0, c1, a00, a01, a02, a10, a11, a12, a20, a21, a22, a30, a31, a32, a40, a41, a42⟩ := idx_facts t
  have hN : grid0.N = 64 := Gen.N_0
  have ht : t.val < 64 := hN ▸ t.isLt
  let bt : Fin 16 := ⟨t.val / 4, by omega⟩
  let qt : Fin 4 := ⟨t.val % 4, by omega⟩
  funext y
  revert y
  show ∀ y : S1x512x1.Idx,
    Cert.KernelIdeal.Run.out4 (F := Ideal) (grid0.coords t)
        (Cert.KernelIdeal.Run.iblk (Cert.KernelIdeal.Run.V1 (F := Ideal) m ρ) c 0 t)
        (Cert.KernelIdeal.Run.iblk (Cert.KernelIdeal.Run.V1 (F := Ideal) m ρ) c 1 t)
        (Cert.KernelIdeal.Run.iblk (Cert.KernelIdeal.Run.V1 (F := Ideal) m ρ) c 2 t)
        (Cert.KernelIdeal.Run.iblk (Cert.KernelIdeal.Run.V1 (F := Ideal) m ρ) c 3 t) y
      = G m c (((cfg0.win 4).blk t).view.emb y)
  intro y
  obtain ⟨r, rfl⟩ : ∃ r : Fin 512, y = ix3 (0 : Fin 1) r (0 : Fin 1) := ⟨y 1, funext fun a => Fin.ext (by
    match a with
    | ⟨0, _⟩ => have h : (y 0).val < 1 := (y 0).isLt; show (y 0).val = 0; omega
    | ⟨1, _⟩ => rfl
    | ⟨2, _⟩ => have h : (y 2).val < 1 := (y 2).isLt; show (y 2).val = 0; omega)⟩
  have hr : r.val < 512 := r.isLt
  have h0 : ∀ (r : Fin 512) (d : Fin 128),
      Cert.KernelIdeal.Run.iblk (Cert.KernelIdeal.Run.V1 (F := Ideal) m ρ) c 0 t (ix3 0 r d)
        = Cert.Spec.crow (xs m c) bt (rowIdx qt r) d := by
    intro r d
    show Cert.KernelIdeal.Run.V1 (F := Ideal) m ρ c main_v1 (((cfg0.win 0).blk t).view.emb (ix3 0 r d)) = _
    have e : ((cfg0.win 0).blk t).view.emb (ix3 (0 : Fin 1) r d) = ix3 bt (rowIdx qt r) d :=
      funext fun a => Fin.ext (by
        match a with
        | ⟨0, _⟩ => show win0_0.index t (0 : Fin 3) * 1 + 1 * 0 = t.val / 4; omega
        | ⟨1, _⟩ => show win0_0.index t (1 : Fin 3) * 512 + 1 * r.val = t.val % 4 * 512 + r.val; omega
        | ⟨2, _⟩ => show win0_0.index t (2 : Fin 3) * 128 + 1 * d.val = d.val; omega)
    rw [e, V1_v1]
  have h1 : ∀ (j : Fin 2048) (d : Fin 128),
      Cert.KernelIdeal.Run.iblk (Cert.KernelIdeal.Run.V1 (F := Ideal) m ρ) c 1 t (ix3 0 j d)
        = Cert.Spec.crow (xs m c) bt j d := by
    intro j d
    show Cert.KernelIdeal.Run.V1 (F := Ideal) m ρ c main_v1 (((cfg0.win 1).blk t).view.emb (ix3 0 j d)) = _
    have e : ((cfg0.win 1).blk t).view.emb (ix3 (0 : Fin 1) j d) = ix3 bt j d :=
      funext fun a => Fin.ext (by
        match a with
        | ⟨0, _⟩ => show win0_1.index t (0 : Fin 3) * 1 + 1 * 0 = t.val / 4; omega
        | ⟨1, _⟩ => show win0_1.index t (1 : Fin 3) * 2048 + 1 * j.val = j.val; omega
        | ⟨2, _⟩ => show win0_1.index t (2 : Fin 3) * 128 + 1 * d.val = d.val; omega)
    rw [e, V1_v1]
  have h2 : ∀ r : Fin 512,
      Cert.KernelIdeal.Run.iblk (Cert.KernelIdeal.Run.V1 (F := Ideal) m ρ) c 2 t (ix3 0 r 0)
        = ys m c bt (Cert.Spec.smp (rowIdx qt r)) := by
    intro r
    show Cert.KernelIdeal.Run.V1 (F := Ideal) m ρ c main_v5 (((cfg0.win 2).blk t).view.emb (ix3 0 r 0)) = _
    have e : ((cfg0.win 2).blk t).view.emb (ix3 (0 : Fin 1) r (0 : Fin 1)) = ix3 bt (rowIdx qt r) (0 : Fin 1) :=
      funext fun a => Fin.ext (by
        match a with
        | ⟨0, _⟩ => show win0_2.index t (0 : Fin 3) * 1 + 1 * 0 = t.val / 4; omega
        | ⟨1, _⟩ => show win0_2.index t (1 : Fin 3) * 512 + 1 * r.val = t.val % 4 * 512 + r.val; omega
        | ⟨2, _⟩ => show win0_2.index t (2 : Fin 3) * 1 + 1 * 0 = 0; omega)
    rw [e, V1_v5]
  have h3 : ∀ j : Fin 2048,
      Cert.KernelIdeal.Run.iblk (Cert.KernelIdeal.Run.V1 (F := Ideal) m ρ) c 3 t (ix3 0 0 j)
        = ys m c bt (Cert.Spec.smp j) := by
    intro j
    show Cert.KernelIdeal.Run.V1 (F := Ideal) m ρ c main_v6 (((cfg0.win 3).blk t).view.emb (ix3 0 0 j)) = _
    have e : ((cfg0.win 3).blk t).view.emb (ix3 (0 : Fin 1) (0 : Fin 1) j) = ix3 bt (0 : Fin 1) j :=
      funext fun a => Fin.ext (by
        match a with
        | ⟨0, _⟩ => show win0_3.index t (0 : Fin 3) * 1 + 1 * 0 = t.val / 4; omega
        | ⟨1, _⟩ => show win0_3.index t (1 : Fin 3) * 1 + 1 * 0 = 0; omega
        | ⟨2, _⟩ => show win0_3.index t (2 : Fin 3) * 2048 + 1 * j.val = j.val; omega)
    rw [e, V1_v6]
  have e4 : ((cfg0.win 4).blk t).view.emb (ix3 (0 : Fin 1) r (0 : Fin 1)) = ix3 bt (rowIdx qt r) (0 : Fin 1) :=
    funext fun a => Fin.ext (by
      match a with
      | ⟨0, _⟩ => show win0_4.index t (0 : Fin 3) * 1 + 1 * 0 = t.val / 4; omega
      | ⟨1, _⟩ => show win0_4.index t (1 : Fin 3) * 512 + 1 * r.val = t.val % 4 * 512 + r.val; omega
      | ⟨2, _⟩ => show win0_4.index t (2 : Fin 3) * 1 + 1 * 0 = 0; omega)
  refine (out4_point (grid0.coords t) _ _ _ _ (xs m c) (ys m c) bt qt c1 h0 h1 h2 h3 r).trans ?_
  exact (congrArg (G m c) e4).symm

/-! ## The blocks cover the array -/

/-- An index of the array is in point `t`'s block iff each coordinate is in the block's range on its axis. -/
theorem mem_blk4 (t : Fin cfg0.N) (i : S16x2048x1.Idx) :
    i ∈ ((cfg0.win 4).blk t).view.set ↔ ∀ a : Fin 3, win0_4.index t a * S1x512x1.size a ≤ (i a).val
      ∧ (i a).val < win0_4.index t a * S1x512x1.size a + S1x512x1.size a := by
  show i ∈ ((View.whole main_v7).slice (win0_4.rect t)).set ↔ _
  rw [View.set_slice_whole, Rect.mem_set_unit]
  exact Iff.rfl

/-- Row `i` of problem `b` lies in the block of point `4 b + i / 512`. -/
theorem covered (i : S16x2048x1.Idx) :
    ∃ t : Fin cfg0.N, (cfg0.win 4).flush t = true ∧ i ∈ ((cfg0.win 4).blk t).view.set := by
  have hN : grid0.N = 64 := Gen.N_0
  have hi0 : (i 0).val < 16 := (i 0).isLt
  have hi1 : (i 1).val < 2048 := (i 1).isLt
  have hi2 : (i 2).val < 1 := (i 2).isLt
  let t : Fin cfg0.N := ⟨4 * (i 0).val + (i 1).val / 512, by show _ < grid0.N; omega⟩
  obtain ⟨-, -, -, -, -, -, -, -, -, -, -, -, -, -, a40, a41, a42⟩ := idx_facts t
  have tv : t.val = 4 * (i 0).val + (i 1).val / 512 := rfl
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1 ≤ (i 2).val ∧ (i 2).val < win0_4.index t (2 : Fin 3) * 1 + 1; omega

/-! ## The array after the region -/

/-- After the region, row `i` of problem `b` of the output array is the specification's kernel row value. -/
theorem arrAt_out (b : Fin 16) (i : Fin 2048) :
    (Cert.KernelIdeal.Run.dat (Cert.KernelIdeal.Run.V1 (F := Ideal) m ρ) c).arrAt 4 cfg0.N (ix3 b i 0)
      = Cert.Spec.rowK (Cert.Spec.logitK (xs m c) b i) (ys m c) b i := by
  rw [(Cert.KernelIdeal.Run.dat (Cert.KernelIdeal.Run.V1 (F := Ideal) m ρ) c).arrAt_eq_of_cover 4 (G m c)
    (fun t _ => flushed_eq m ρ c t) covered]
  rfl

end Cert.KernelIdeal.KValue

end
-- ==== Proof.KernelIdealTail.lean ====
/-
  The seven operations after the region: the 32768 row values summed, divided by 32768 and negated.
-/
import proofs.«105418_j83786222010855_1_alg».proof.Proof.KernelIdealRun
import proofs.«105418_j83786222010855_1_alg».proof.Proof.KernelIdealPayload
import proofs.«105418_j83786222010855_1_alg».proof.Proof.KernelIdealBlocks
import proofs.«105418_j83786222010855_1_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The words of the two closing constants. -/
theorem ofBits_negOne : Ideal.ofBits .f32 0xBF800000#32 = ((-1 : ℝ) : EReal) := by
  simp [Ideal.ofBits, Ideal.ieee, -EReal.coe_mul]; norm_num

theorem ofBits_32768 : Ideal.ofBits .f32 0x47000000#32 = ((32768 : ℝ) : EReal) := by
  simp [Ideal.ofBits, Ideal.ieee, -EReal.coe_mul]; norm_num

/-- The sum over the whole [16, 2048] array of row values, from zero, is the double sum of the specification's rows:
    the reshape [16, 2048, 1] → [16, 2048] keeps the row-major position. -/
theorem sum_rows (j : S_.Idx) :
    Host.reduceAdd (F := Ideal)
        (shapeCast S16x2048 ((Cert.KernelIdeal.Run.dat (Cert.KernelIdeal.Run.V1 (F := Ideal) m ρ) c).arrAt 4 cfg0.N) shapeCasts_S16x2048x1_S16x2048)
        (constant (F := Ideal) S_ .f32 0x00000000#32) reducesTo_S16x2048_S_d0_1 h_S_ j
      = ∑ b : Fin 16, ∑ i : Fin 2048, Cert.Spec.rowK (Cert.Spec.logitK (xs m c) b i) (ys m c) b i := by
  simp only [Host.reduceAdd, Ideal.hostReduceAdd_def]
  rw [Ideal.hostReduceAdd_total reducesTo_S16x2048_S_d0_1 (fun b => b.elim0) _ _ j, sum_idx2]
  show Ideal.ofBits .f32 0x00000000#32 + _ = _
  rw [Ideal.ofBits_zero_f32, zero_add]
  refine Finset.sum_congr rfl fun b _ => Finset.sum_congr rfl fun i _ => ?_
  rw [shapeCast_apply _ shapeCasts_S16x2048x1_S16x2048 (ix2 b i) (ix3 b i 0) (by
    rw [Shape.rowMajor_val_three, Shape.rowMajor_val_two]
    show (b.val * 2048 + i.val) * 1 + 0 = b.val * 2048 + i.val
    omega)]
  exact arrAt_out m ρ c b i

/-- The program's result buffer at the end of the run is the specification's kernel result. -/
theorem W3_v11 :
    Cert.KernelIdeal.Run.W3 (F := Ideal) m ρ c (Proc.devRef .tc main_v11) = fun _ => Cert.Spec.lossK (xs m c) (ys m c) := by
  have e : (Cert.KernelIdeal.Run.W3 (F := Ideal) m ρ c (Proc.devRef .tc main_v11) : S_.Idx → EReal) =
      mulf (constant (F := Ideal) S_ .f32 0xBF800000#32) (Host.divf (Host.reduceAdd (F := Ideal)
        (shapeCast S16x2048 (Cert.KernelIdeal.Run.W2 (F := Ideal) m ρ c (Proc.devRef .tc main_v7)) shapeCasts_S16x2048x1_S16x2048)
        (constant (F := Ideal) S_ .f32 0x00000000#32) reducesTo_S16x2048_S_d0_1 h_S_) (constant (F := Ideal) S_ .f32 0x47000000#32)) := by
    show StableHlo.after hostOps1 _ (Proc.devRef .tc main_v11) = _
    after_results; rfl
  rw [e, Cert.KernelIdeal.Run.W2_out]
  funext j
  show Ideal.ofBits .f32 0xBF800000#32 * Ideal.div (Host.reduceAdd (F := Ideal) _ _ reducesTo_S16x2048_S_d0_1 h_S_ j) (Ideal.ofBits .f32 0x47000000#32) = _
  rw [sum_rows m ρ c j, ofBits_negOne, ofBits_32768]
  rfl

end Cert.KernelIdeal.KValue

end
-- ==== Proof.RefValue.lean ====
/-
  The reference's result, read one operation at a time, is the specification's `lossR` of the two argument arrays.
-/
import proofs.«105418_j83786222010855_1_alg».proof.Proof.Gen.ReferenceIdeal.Run
import proofs.«105418_j83786222010855_1_alg».proof.Proof.Gen.ReferenceIdeal.Read
import proofs.«105418_j83786222010855_1_alg».proof.Proof.Spec
import Idealize.ShloMosaic.Lib.ValueIdx
import Idealize.ShloMosaic.Lib.ValueIdxRank1
import Idealize.ShloMosaic.Lib.ValueIdxRank6
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic
open Idealize.ShloMosaic.ValueIdx

/-- The argument arrays' types, named once. -/
abbrev X0 : Type := (⟨S16x1024x2x128, .f32⟩ : BufTy).Contents (Elt Ideal)
abbrev X1 : Type := (⟨S16x1024, .i32⟩ : BufTy).Contents (Elt Ideal)

/-! ## The constants' words as extended reals -/

theorem ofBits_temp : Ideal.ofBits .f32 0x3D8F5C29#32 = Cert.Spec.temp := by
  unfold Cert.Spec.temp
  simp [Ideal.ofBits, Ideal.ieee, -EReal.coe_mul]; norm_num

theorem ofBits_ninf : Ideal.ofBits .f32 0xFF800000#32 = ⊥ := by
  simp [Ideal.ofBits, Ideal.ieee]

theorem ofBits_one : Ideal.ofBits .f32 0x3F800000#32 = 1 := by
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

theorem ofBits_negOne : Ideal.ofBits .f32 0xBF800000#32 = ((-1 : ℝ) : EReal) := by
  simp [Ideal.ofBits, Ideal.ieee, -EReal.coe_mul]; norm_num

theorem ofBits_16 : Ideal.ofBits .f32 0x41800000#32 = ((16 : ℝ) : EReal) := by
  simp [Ideal.ofBits, Ideal.ieee, -EReal.coe_mul]; norm_num

/-- A one-bit equality test converted to a float is one where the words agree and zero elsewhere. -/
theorem uitofp_cmpi_eq {w : Nat} (x y : BitVec w) :
    FloatOps.uitofp (F := Ideal) .f32 (IntOp.cmpi .eq x y) = if x = y then (1 : EReal) else 0 := by
  show (((IntOp.cmpi .eq x y).toNat : ℝ) : EReal) = _
  by_cases h : x = y
  · rw [if_pos h]; subst h; simp [IntOp.cmpi]
  · rw [if_neg h]; simp [IntOp.cmpi, h]

/-! ## The feature rows, their inner products and the logits -/

/-- The transposed and merged feature array at row `i` is view `i / 1024` of sample `i % 1024`. -/
theorem v1_at (x0 : X0) (b : Fin 16) (i : Fin 2048) (d : Fin 128) :
    val_main_v1 (F := Ideal) x0 (ix3 b i d) = Cert.Spec.crow (Cert.Spec.featOf x0) b i d := by
  rw [val_main_v1_apply, val_main_v0_apply]
  unfold Cert.Spec.crow Cert.Spec.featOf
  have hb := b.isLt; have hi := i.isLt; have hd := d.isLt
  refine congrArg x0 (funext fun a => Fin.ext ?_)
  match a with
  | ⟨0, _⟩ => show ((b.val * 2048 + i.val) * 128 + d.val) / 262144 = b.val; omega
  | ⟨1, _⟩ => show ((b.val * 2048 + i.val) * 128 + d.val) / 128 % 1024 = i.val % 1024; omega
  | ⟨2, _⟩ => show ((b.val * 2048 + i.val) * 128 + d.val) / 131072 % 2 = i.val / 1024; omega
  | ⟨3, _⟩ => show ((b.val * 2048 + i.val) * 128 + d.val) % 128 = d.val; omega

/-- The batched product of the row matrix with itself is the table of inner products. -/
theorem v2_at (x0 : X0) (b : Fin 16) (i j : Fin 2048) :
    val_main_v2 (F := Ideal) x0 (ix3 b i j) = Cert.Spec.sim (Cert.Spec.featOf x0) b i j := by
  rw [val_main_v2_apply]
  unfold Cert.Spec.sim
  refine Finset.sum_congr rfl fun k _ => ?_
  have e1 : lidx_main_v2 (ix3 b i j) k = ix3 b i k :=
    funext fun a => Fin.ext (by match a with | ⟨0, _⟩ => rfl | ⟨1, _⟩ => rfl | ⟨2, _⟩ => rfl)
  have e2 : ridx_main_v2 (ix3 b i j) k = ix3 b j k :=
    funext fun a => Fin.ext (by match a with | ⟨0, _⟩ => rfl | ⟨1, _⟩ => rfl | ⟨2, _⟩ => rfl)
  rw [e1, e2, v1_at, v1_at]

/-- Divided by the temperature: the reference's logits. -/
theorem v4_at (x0 : X0) (b : Fin 16) (i j : Fin 2048) :
    val_main_v4 (F := Ideal) x0 (ix3 b i j) = Cert.Spec.logitR (Cert.Spec.featOf x0) b i j := by
  rw [val_main_v4_apply, val_main_v3_apply, val_main_cst_apply, v2_at]
  simp only [Ideal.hostDivf_def, Ideal.ofBits_def, ofBits_temp]
  rfl

/-- The reduced index `(b, i)` with `k` put back on the last axis is `(b, i, k)`. -/
theorem lift_d2 (h : S16x2048x2048.Reduces [2] S16x2048) (b : Fin 16) (i : Fin 2048) (k : Fin (S16x2048x2048.size 2)) :
    h.lift (ix2 b i) k = ix3 b i (⟨k.val, k.isLt⟩ : Fin 2048) := by
  funext c; apply Fin.ext
  fin_cases c <;> rfl

/-- The reduction by maximum over the last axis from the bottom element is the row's maximum. -/
theorem v5_at (x0 : X0) (b : Fin 16) (i : Fin 2048) :
    val_main_v5 (F := Ideal) x0 (ix2 b i) = Cert.Spec.rowMax (Cert.Spec.logitR (Cert.Spec.featOf x0) b i) := by
  have h : S16x2048x2048.Reduces [2] S16x2048 := by decide
  unfold val_main_v5
  rw [Host.reduce_eq_fold_single FloatOps.maximumf _ _ reducesTo_S16x2048x2048_S16x2048_d2 h h_S_]
  have hf : (val_main_v4 (F := Ideal) x0 ∘ h.lift (ix2 b i)) = Cert.Spec.logitR (Cert.Spec.featOf x0) b i := by
    funext k
    show val_main_v4 (F := Ideal) x0 (h.lift (ix2 b i) k) = _
    rw [lift_d2, v4_at]
    rfl
  rw [hf]
  show Finset.fold max (Ideal.ofBits .f32 0xFF800000#32) _ _ = _
  rw [ofBits_ninf]
  rfl

/-- The shifted logits. -/
theorem v8_at (x0 : X0) (b : Fin 16) (i j : Fin 2048) :
    val_main_v8 (F := Ideal) x0 (ix3 b i j)
      = Cert.Spec.logitR (Cert.Spec.featOf x0) b i j - Cert.Spec.rowMax (Cert.Spec.logitR (Cert.Spec.featOf x0) b i) := by
  rw [val_main_v8_apply, val_main_v7_apply, val_main_v6_apply, v4_at]
  have e : idx_main_v6 (idx_main_v7 (ix3 b i j)) = ix2 b i :=
    funext fun a => Fin.ext (by match a with | ⟨0, _⟩ => rfl | ⟨1, _⟩ => rfl)
  rw [e, v5_at]
  rfl

/-! ## The two masks -/

/-- The label comparison over samples, as a float. -/
theorem v14_at (x1 : X1) (b : Fin 16) (p q : Fin 1024) :
    val_main_v14 (F := Ideal) x1 (ix3 b p q)
      = if Cert.Spec.labelsOf x1 b p = Cert.Spec.labelsOf x1 b q then (1 : EReal) else 0 := by
  rw [val_main_v14_apply, val_main_v13_apply, val_main_v11_apply, val_main_v12_apply, val_main_v9_apply,
    val_main_v10_apply]
  have e1 : idx_main_v9 (idx_main_v11 (ix3 b p q)) = ix2 b p :=
    funext fun a => Fin.ext (by match a with | ⟨0, _⟩ => rfl | ⟨1, _⟩ => rfl)
  have e2 : idx_main_v10 (idx_main_v12 (ix3 b p q)) = ix2 b q :=
    funext fun a => Fin.ext (by match a with | ⟨0, _⟩ => rfl | ⟨1, _⟩ => rfl)
  rw [e1, e2, uitofp_cmpi_eq]
  rfl

/-- The comparison repeated over the two views of each sample and merged to rows: row `i` carries the label of
    sample `i % 1024`. -/
theorem v17_at (x1 : X1) (b : Fin 16) (i j : Fin 2048) :
    val_main_v17 (F := Ideal) x1 (ix3 b i j) = Cert.Spec.same (Cert.Spec.labelsOf x1) b i j := by
  have hb := b.isLt; have hi := i.isLt; have hj := j.isLt
  unfold val_main_v17
  rw [shapeCast_apply _ shapeCasts_S1x16x2x1024x2x1024_S16x2048x2048 (ix3 b i j)
    (ix6 (0 : Fin 1) b (Cert.Spec.vw i) (Cert.Spec.smp i) (Cert.Spec.vw j) (Cert.Spec.smp j)) (by
      rw [Shape.rowMajor_val_six, Shape.rowMajor_val_three]
      show (((((0 * 16 + b.val) * 2 + i.val / 1024) * 1024 + i.val % 1024) * 2 + j.val / 1024) * 1024 + j.val % 1024)
        = (b.val * 2048 + i.val) * 2048 + j.val
      omega)]
  rw [val_main_v16_apply]
  unfold val_main_v15
  rw [shapeCast_apply _ shapeCasts_S16x1024x1024_S1x16x1x1024x1x1024 _ (ix3 b (Cert.Spec.smp i) (Cert.Spec.smp j)) (by
      rw [Shape.rowMajor_val_three, Shape.rowMajor_val_six]
      show (b.val * 1024 + i.val % 1024) * 1024 + j.val % 1024
        = ((((0 * 16 + b.val) * 1 + 0) * 1024 + i.val % 1024) * 1 + 0) * 1024 + j.val % 1024
      omega)]
  rw [v14_at]
  rfl

/-- One minus the identity pattern: zero on the diagonal and one off it. -/
theorem v25_at (i j : Fin 2048) : val_main_v25 (F := Ideal) (ix2 i j) = Cert.Spec.offDiag i j := by
  rw [val_main_v25_apply, val_main_v24_apply, val_main_cst_1_apply, val_main_v23_apply, val_main_v22_apply,
    val_main_v21_apply, val_main_v18_apply, val_main_v20_apply, val_main_c_apply, val_main_v19_apply, uitofp_cmpi_eq]
  simp only [Ideal.subf_def, Ideal.ofBits_def, ofBits_one]
  unfold Cert.Spec.offDiag
  have hi := i.isLt; have hj := j.isLt
  have hiff : (IntOp.addi (BitVec.ofNat 32 ((ix2 i j) 0).val) 0#32 = BitVec.ofNat 32 ((ix2 i j) 1).val) ↔ i = j := by
    show (BitVec.ofNat 32 i.val + 0#32 = BitVec.ofNat 32 j.val) ↔ i = j
    rw [BitVec.add_zero]
    constructor
    · intro h
      have := congrArg BitVec.toNat h
      simp only [BitVec.toNat_ofNat] at this
      apply Fin.ext
      omega
    · rintro rfl; rfl
  by_cases h : i = j
  · rw [if_pos (hiff.mpr h), if_pos h]
    show ((1 : ℝ) : EReal) - ((1 : ℝ) : EReal) = 0
    rw [← EReal.coe_sub, sub_self]; rfl
  · rw [if_neg (mt hiff.mp h), if_neg h]
    exact sub_zero _

/-- The positives' mask. -/
theorem v28_at (x1 : X1) (b : Fin 16) (i j : Fin 2048) :
    val_main_v28 (F := Ideal) x1 (ix3 b i j) = Cert.Spec.msk (Cert.Spec.labelsOf x1) b i j := by
  rw [val_main_v28_apply, val_main_v27_apply, val_main_v26_apply, v17_at]
  have e : idx_main_v26 (idx_main_v27 (ix3 b i j)) = ix2 i j :=
    funext fun a => Fin.ext (by match a with | ⟨0, _⟩ => rfl | ⟨1, _⟩ => rfl)
  rw [e, v25_at]
  rfl

/-! ## The row sums and the row value -/

/-- A row's logits, named. -/
abbrev lg (x0 : X0) (b : Fin 16) (i : Fin 2048) : Fin 2048 → EReal := Cert.Spec.logitR (Cert.Spec.featOf x0) b i

/-- The shifted exponentials off the diagonal. -/
theorem v32_at (x0 : X0) (b : Fin 16) (i j : Fin 2048) :
    val_main_v32 (F := Ideal) x0 (ix3 b i j)
      = Ideal.exp (lg x0 b i j - Cert.Spec.rowMax (lg x0 b i)) * Cert.Spec.offDiag i j := by
  rw [val_main_v32_apply, val_main_v29_apply, val_main_v31_apply, val_main_v30_apply, v8_at]
  have e : idx_main_v30 (idx_main_v31 (ix3 b i j)) = ix2 i j :=
    funext fun a => Fin.ext (by match a with | ⟨0, _⟩ => rfl | ⟨1, _⟩ => rfl)
  rw [e, v25_at]
  rfl

/-- Their sum along the row. -/
theorem v33_at (x0 : X0) (b : Fin 16) (i : Fin 2048) :
    val_main_v33 (F := Ideal) x0 (ix2 b i) = Cert.Spec.sumExp (lg x0 b i) i := by
  rw [val_main_v33_apply, val_main_cst_2_apply]
  simp only [Ideal.ofBits_def, Ideal.ofBits_zero_f32, zero_add]
  unfold Cert.Spec.sumExp
  refine Finset.sum_congr rfl fun k _ => ?_
  have e : idx_main_v33 (ix2 b i) k = ix3 b i k :=
    funext fun a => Fin.ext (by match a with | ⟨0, _⟩ => rfl | ⟨1, _⟩ => rfl | ⟨2, _⟩ => rfl)
  rw [e, v32_at]

/-- The shifted logits less the logarithm of that sum. -/
theorem v37_at (x0 : X0) (b : Fin 16) (i j : Fin 2048) :
    val_main_v37 (F := Ideal) x0 (ix3 b i j)
      = (lg x0 b i j - Cert.Spec.rowMax (lg x0 b i)) - Ideal.log (Cert.Spec.sumExp (lg x0 b i) i) := by
  rw [val_main_v37_apply, val_main_v36_apply, val_main_v35_apply, val_main_v34_apply, v8_at]
  have e : idx_main_v34 (idx_main_v36 (ix3 b i j)) = ix2 b i :=
    funext fun a => Fin.ext (by match a with | ⟨0, _⟩ => rfl | ⟨1, _⟩ => rfl)
  rw [e, v33_at]
  rfl

/-- The masked terms. -/
theorem v38_at (x0 : X0) (x1 : X1) (b : Fin 16) (i j : Fin 2048) :
    val_main_v38 (F := Ideal) x0 x1 (ix3 b i j)
      = Cert.Spec.msk (Cert.Spec.labelsOf x1) b i j
        * ((lg x0 b i j - Cert.Spec.rowMax (lg x0 b i)) - Ideal.log (Cert.Spec.sumExp (lg x0 b i) i)) := by
  rw [val_main_v38_apply, v28_at, v37_at]
  rfl

/-- The masked terms summed along the row. -/
theorem v39_at (x0 : X0) (x1 : X1) (b : Fin 16) (i : Fin 2048) :
    val_main_v39 (F := Ideal) x0 x1 (ix2 b i)
      = ∑ j : Fin 2048, Cert.Spec.msk (Cert.Spec.labelsOf x1) b i j
        * ((lg x0 b i j - Cert.Spec.rowMax (lg x0 b i)) - Ideal.log (Cert.Spec.sumExp (lg x0 b i) i)) := by
  rw [val_main_v39_apply, val_main_cst_3_apply]
  simp only [Ideal.ofBits_def, Ideal.ofBits_zero_f32, zero_add]
  refine Finset.sum_congr rfl fun k _ => ?_
  have e : idx_main_v39 (ix2 b i) k = ix3 b i k :=
    funext fun a => Fin.ext (by match a with | ⟨0, _⟩ => rfl | ⟨1, _⟩ => rfl | ⟨2, _⟩ => rfl)
  rw [e, v38_at]

/-- The number of positives of the row. -/
theorem v40_at (x1 : X1) (b : Fin 16) (i : Fin 2048) :
    val_main_v40 (F := Ideal) x1 (ix2 b i) = ∑ j : Fin 2048, Cert.Spec.msk (Cert.Spec.labelsOf x1) b i j := by
  rw [val_main_v40_apply, val_main_cst_4_apply]
  simp only [Ideal.ofBits_def, Ideal.ofBits_zero_f32, zero_add]
  refine Finset.sum_congr rfl fun k _ => ?_
  have e : idx_main_v40 (ix2 b i) k = ix3 b i k :=
    funext fun a => Fin.ext (by match a with | ⟨0, _⟩ => rfl | ⟨1, _⟩ => rfl | ⟨2, _⟩ => rfl)
  rw [e, v28_at]

/-- The reference's row value. -/
theorem v41_at (x0 : X0) (x1 : X1) (b : Fin 16) (i : Fin 2048) :
    val_main_v41 (F := Ideal) x0 x1 (ix2 b i) = Cert.Spec.rowR (lg x0 b i) (Cert.Spec.labelsOf x1) b i := by
  rw [val_main_v41_apply, v39_at, v40_at]
  rfl

/-! ## The means -/

/-- The rows of a problem summed. -/
theorem v42_at (x0 : X0) (x1 : X1) (b : Fin 16) :
    val_main_v42 (F := Ideal) x0 x1 (ix1 b)
      = ∑ i : Fin 2048, Cert.Spec.rowR (lg x0 b i) (Cert.Spec.labelsOf x1) b i := by
  rw [val_main_v42_apply, val_main_cst_5_apply]
  simp only [Ideal.ofBits_def, Ideal.ofBits_zero_f32, zero_add]
  refine Finset.sum_congr rfl fun k _ => ?_
  have e : idx_main_v42 (ix1 b) k = ix2 b k :=
    funext fun a => Fin.ext (by match a with | ⟨0, _⟩ => rfl | ⟨1, _⟩ => rfl)
  rw [e, v41_at]

/-- Minus a problem's row mean. -/
theorem v46_at (x0 : X0) (x1 : X1) (b : Fin 16) :
    val_main_v46 (F := Ideal) x0 x1 (ix1 b)
      = ((-1 : ℝ) : EReal) * Ideal.div (∑ i : Fin 2048, Cert.Spec.rowR (lg x0 b i) (Cert.Spec.labelsOf x1) b i)
          ((2048 : ℝ) : EReal) := by
  rw [val_main_v46_apply, val_main_v45_apply, val_main_cst_7_apply, val_main_v44_apply, val_main_v43_apply,
    val_main_cst_6_apply, v42_at]
  simp only [Ideal.mulf_def, Ideal.hostDivf_def, Ideal.ofBits_def, ofBits_negOne, ofBits_2048]

/-- The last stage of the reference, as a function of the two argument arrays, is the specification's result. -/
theorem ref_value (x0 : (⟨S16x1024x2x128, .f32⟩ : BufTy).Contents (Elt Ideal)) (x1 : (⟨S16x1024, .i32⟩ : BufTy).Contents (Elt Ideal)) :
    val_main_v48 (F := Ideal) x0 x1 = fun _ => Cert.Spec.lossR (Cert.Spec.featOf x0) (Cert.Spec.labelsOf x1) := by
  funext i
  rw [val_main_v48_apply, val_main_cst_9_apply, val_main_v47_apply, val_main_cst_8_apply]
  simp only [Ideal.hostDivf_def, Ideal.ofBits_def, Ideal.ofBits_zero_f32, zero_add, ofBits_16]
  unfold Cert.Spec.lossR
  congr 1
  rw [← Equiv.sum_comp (idxEquiv1 (n := 16)).symm]
  refine Finset.sum_congr rfl fun b _ => ?_
  show val_main_v46 (F := Ideal) x0 x1 (ix1 b) = _
  rw [v46_at]

end Cert.ReferenceIdeal.RefValue

end
-- ==== Proof.Algebra.lean ====
/-
  The two row formulas agree, and so do the two means, when every feature is a real number.

  Everything is carried down to the reals. Every feature being real, each inner product is real, and
  the product with the reciprocal of the temperature and the quotient by the temperature are the same
  real number. A row of real logits has a real maximum; its shifted exponentials are positive and at
  least one of them survives the off-diagonal factor, so the logarithm is real. The mask is zero or one
  and counts at least the other view of the same sample, so its sum is a real number that is not zero.
  Over the reals the two row formulas differ by distributing the mask sum over the subtraction, and the
  two means by 32768 = 2048 · 16.
-/
import proofs.«105418_j83786222010855_1_alg».proof.Proof.Spec

noncomputable section

namespace Cert.Spec

open Idealize.ShloMosaic

/-- The coercion of a finite real sum is the sum of the coercions. -/
private theorem coe_sum {ι : Type} (s : Finset ι) (f : ι → ℝ) :
    ((∑ j ∈ s, f j : ℝ) : EReal) = ∑ j ∈ s, (f j : EReal) := by
  classical
  refine Finset.induction_on s (by simp) ?_
  intro a s ha ih
  rw [Finset.sum_insert ha, Finset.sum_insert ha, EReal.coe_add, ih]

/-- The larger of two reals, taken among the extended reals. -/
private theorem coe_max' (p q : ℝ) : max (p : EReal) (q : EReal) = ((max p q : ℝ) : EReal) := by
  rcases le_total p q with h | h
  · rw [max_eq_right h, max_eq_right (EReal.coe_le_coe_iff.2 h)]
  · rw [max_eq_left h, max_eq_left (EReal.coe_le_coe_iff.2 h)]

/-- A maximum folded from the bottom element over real entries is the bottom element or a real. -/
private theorem fold_max_coe {ι : Type} [DecidableEq ι] (s : Finset ι) (f : ι → ℝ) :
    s.fold max (⊥ : EReal) (fun j => (f j : EReal)) = ⊥ ∨
      ∃ M : ℝ, s.fold max (⊥ : EReal) (fun j => (f j : EReal)) = (M : EReal) := by
  refine Finset.induction_on s (Or.inl (by simp)) ?_
  intro a s ha ih
  right
  rw [Finset.fold_insert ha]
  rcases ih with h | ⟨M, h⟩
  · exact ⟨f a, by rw [h, max_bot_right]⟩
  · exact ⟨max (f a) M, by rw [h, coe_max']⟩

/-- The maximum of a row of real logits is real. -/
private theorem rowMax_coe (α : Fin 2048 → ℝ) : ∃ M : ℝ, rowMax (fun j => (α j : EReal)) = (M : EReal) := by
  have h : (Finset.univ : Finset (Fin 2048)) = insert 0 (Finset.univ.erase 0) := by
    rw [Finset.insert_erase (Finset.mem_univ _)]
  unfold rowMax
  rw [h, Finset.fold_insert (Finset.notMem_erase _ _)]
  rcases fold_max_coe (Finset.univ.erase (0 : Fin 2048)) α with h' | ⟨M, h'⟩
  · exact ⟨α 0, by rw [h', max_bot_right]⟩
  · exact ⟨max (α 0) M, by rw [h', coe_max']⟩

/-- The other view of the same sample: the row 1024 further on, cyclically. -/
private def partner (i : Fin 2048) : Fin 2048 := ⟨(i.val + 1024) % 2048, Nat.mod_lt _ (by norm_num)⟩

private theorem partner_ne (i : Fin 2048) : i ≠ partner i := by
  intro h
  have := congrArg Fin.val h
  simp only [partner] at this
  have := i.isLt
  omega

private theorem smp_partner (i : Fin 2048) : smp (partner i) = smp i := by
  apply Fin.ext
  simp only [smp, partner]
  have := i.isLt
  omega

/-- For a row of real logits the two row formulas give the same real number. -/
private theorem row_eq (α : Fin 2048 → ℝ) (y : Labels) (b : Fin 16) (i : Fin 2048) :
    ∃ ρ : ℝ, rowK (fun j => (α j : EReal)) y b i = (ρ : EReal) ∧
      rowR (fun j => (α j : EReal)) y b i = (ρ : EReal) := by
  obtain ⟨M, hM⟩ := rowMax_coe α
  -- the off-diagonal factor and the mask as real numbers
  obtain ⟨o, ho⟩ : ∃ o : Fin 2048 → ℝ, o = fun j => if i = j then 0 else 1 := ⟨_, rfl⟩
  have hoff : ∀ j, offDiag i j = (o j : EReal) := by
    intro j
    simp only [offDiag, ho]
    split_ifs <;> simp
  obtain ⟨m, hm⟩ : ∃ m : Fin 2048 → ℝ,
      m = fun j => (if y b (smp i) = y b (smp j) then 1 else 0) * (if i = j then 0 else 1) := ⟨_, rfl⟩
  have hmsk : ∀ j, msk y b i j = (m j : EReal) := by
    intro j
    simp only [msk, same, offDiag, hm]
    split_ifs <;> simp
  have hm0 : ∀ j, 0 ≤ m j := by
    intro j
    simp only [hm]
    split_ifs <;> norm_num
  have ho0 : ∀ j, 0 ≤ o j := by
    intro j
    simp only [ho]
    split_ifs <;> norm_num
  have hop : o (partner i) = 1 := by
    simp only [ho]
    rw [if_neg (partner_ne i)]
  have hmp : m (partner i) = 1 := by
    simp only [hm]
    rw [if_neg (partner_ne i), smp_partner, if_pos rfl, mul_one]
  -- the sum of the shifted exponentials is a positive real
  have hS : sumExp (fun j => (α j : EReal)) i = ((∑ j, Real.exp (α j - M) * o j : ℝ) : EReal) := by
    rw [coe_sum]
    unfold sumExp
    rw [hM]
    refine Finset.sum_congr rfl (fun j _ => ?_)
    rw [hoff, ← EReal.coe_sub, Ideal.exp_coe, EReal.coe_mul]
  have hSpos : 0 < ∑ j, Real.exp (α j - M) * o j := by
    refine Finset.sum_pos' (fun j _ => mul_nonneg (Real.exp_pos _).le (ho0 j)) ⟨partner i, Finset.mem_univ _, ?_⟩
    rw [hop, mul_one]
    exact Real.exp_pos _
  -- the mask sum is a real number that is at least one
  have hd1 : (1 : ℝ) ≤ ∑ j, m j := by
    rw [← hmp]
    exact Finset.single_le_sum (fun j _ => hm0 j) (Finset.mem_univ (partner i))
  have hd : (∑ j, m j) ≠ 0 := by linarith
  set L : ℝ := Real.log (∑ j, Real.exp (α j - M) * o j) with hL
  have h1 : ∑ j, msk y b i j * (α j : EReal) = ((∑ j, m j * α j : ℝ) : EReal) := by
    rw [coe_sum]
    exact Finset.sum_congr rfl (fun j _ => by rw [hmsk, EReal.coe_mul])
  have h2 : ∑ j, msk y b i j = ((∑ j, m j : ℝ) : EReal) := by
    rw [coe_sum]
    exact Finset.sum_congr rfl (fun j _ => hmsk j)
  have h3 : ∑ j, msk y b i j * (((α j : EReal) - (M : EReal)) - (L : EReal)) =
      ((∑ j, m j * ((α j - M) - L) : ℝ) : EReal) := by
    rw [coe_sum]
    exact Finset.sum_congr rfl (fun j _ => by rw [hmsk, ← EReal.coe_sub, ← EReal.coe_sub, EReal.coe_mul])
  -- the identity over the reals
  have key : (∑ j, m j * ((α j - M) - L)) * (1 / ∑ j, m j) = (∑ j, m j * α j) * (1 / ∑ j, m j) - M - L := by
    have hsplit : ∑ j, m j * ((α j - M) - L) = (∑ j, m j * α j) - (M + L) * ∑ j, m j := by
      rw [Finset.mul_sum, ← Finset.sum_sub_distrib]
      exact Finset.sum_congr rfl (fun j _ => by ring)
    rw [hsplit]
    field_simp
    ring
  refine ⟨(∑ j, m j * α j) * (1 / ∑ j, m j) - M - L, ?_, ?_⟩
  · simp only [rowK]
    rw [hM, hS, Ideal.log_coe, if_neg (not_le.2 hSpos), h1, h2, Ideal.div_coe hd, ← EReal.coe_mul,
      ← EReal.coe_sub, ← EReal.coe_sub]
  · simp only [rowR]
    rw [hM, hS, Ideal.log_coe, if_neg (not_le.2 hSpos), h3, h2, Ideal.div_coe hd, ← EReal.coe_mul, key]

/-- With real features the two logit rows are one row of real numbers. -/
private theorem logit_eq (x : Feat) (hfin : ∀ b p v d, ∃ r : ℝ, x b p v d = (r : EReal)) (b : Fin 16) (i : Fin 2048) :
    ∃ α : Fin 2048 → ℝ, logitK x b i = (fun j => (α j : EReal)) ∧ logitR x b i = (fun j => (α j : EReal)) := by
  choose ξ hξ using hfin
  have hsim : ∀ j, sim x b i j = ((∑ d, ξ b (smp i) (vw i) d * ξ b (smp j) (vw j) d : ℝ) : EReal) := by
    intro j
    rw [coe_sum]
    unfold sim crow
    exact Finset.sum_congr rfl (fun d _ => by rw [hξ, hξ, EReal.coe_mul])
  refine ⟨fun j => (∑ d, ξ b (smp i) (vw i) d * ξ b (smp j) (vw j) d) * (134217728 / 9395241), ?_, ?_⟩
  · funext j
    simp only [logitK, invTemp]
    rw [hsim, ← EReal.coe_mul]
  · funext j
    simp only [logitR, temp]
    rw [Ideal.div_coe (by norm_num), hsim, ← EReal.coe_mul]
    congr 1
    norm_num

/-- With every feature real, the kernel's result and the reference's are the same extended real. -/
theorem loss_eq (x : Feat) (y : Labels) (hfin : ∀ b p v d, ∃ r : ℝ, x b p v d = (r : EReal)) :
    lossK x y = lossR x y := by
  have hrow : ∀ b i, ∃ ρ : ℝ, rowK (logitK x b i) y b i = (ρ : EReal) ∧ rowR (logitR x b i) y b i = (ρ : EReal) := by
    intro b i
    obtain ⟨α, hK, hR⟩ := logit_eq x hfin b i
    rw [hK, hR]
    exact row_eq α y b i
  choose ρ hρK hρR using hrow
  have hreal : (-1 : ℝ) * ((∑ b : Fin 16, ∑ i : Fin 2048, ρ b i) * (1 / 32768)) =
      (∑ b : Fin 16, (-1 : ℝ) * ((∑ i : Fin 2048, ρ b i) * (1 / 2048))) * (1 / 16) := by
    rw [← Finset.mul_sum, ← Finset.sum_mul]
    ring
  unfold lossK lossR
  simp only [hρK, hρR, ← coe_sum]
  rw [Ideal.div_coe (by norm_num), Ideal.div_coe (by norm_num), ← EReal.coe_mul, ← EReal.coe_mul]
  simp only [Ideal.div_coe (show (2048 : ℝ) ≠ 0 by norm_num), ← EReal.coe_mul, ← coe_sum]
  rw [hreal]

end Cert.Spec

end
-- ==== Proof.Finite.lean ====
/-
  The precondition says every feature is finite: each entry of the feature array is a real number.
-/
import proofs.«105418_j83786222010855_1_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic

/-- A one-bit word made from a boolean is one exactly when the boolean is true. -/
theorem ofBool_eq_one_iff (b : Bool) : BitVec.ofBool b = 1#1 ↔ b = true := by
  cases b <;> decide

/-- The bit pattern of positive infinity denotes the top of the extended reals. -/
theorem inf_bits_eq_top : FloatOps.ofBits (F := Ideal) .f32 0x7F800000#32 = (⊤ : EReal) := by
  simp [Ideal.ofBits, Ideal.ieee]

/-- An extended real whose absolute value `max x (-x)` lies strictly below the top is a real number:
    the top itself fails the bound, and the bottom has negation equal to the top. -/
theorem real_of_abs_lt_top (x : EReal) (hx : max x (-x) < (⊤ : EReal)) : ∃ r : ℝ, x = (r : EReal) := by
  induction x using EReal.rec with
  | bot => exact absurd hx (by simp)
  | coe r => exact ⟨r, rfl⟩
  | top => exact absurd hx (by simp)

/-- If the printed precondition evaluates to all ones on the two argument arrays, every entry of the
    feature array is the coercion of a real number. -/
theorem real_of_pre (X : FVec Ideal Cert.Pre_finite_inputs.S16x1024x2x128 .f32) (Y : IVec Cert.Pre_finite_inputs.S16x1024 32)
    (h : Cert.Pre_finite_inputs.fn (F := Ideal) X Y = fun _ => 1#1) :
    ∀ i : Cert.Pre_finite_inputs.S16x1024x2x128.Idx, ∃ r : ℝ, X i = (r : EReal) := by
  intro i
  -- The predicate's result has a single (rank-zero) index; read the hypothesis there.
  have h0 := congrFun h ValueIdx.ix0
  dsimp only [Cert.Pre_finite_inputs.fn] at h0
  haveI : Subsingleton Cert.Pre_finite_inputs.S_.Idx := ⟨fun a b => funext fun d => d.elim0⟩
  -- A conjunction over all four axes that is one had a one at every index, in particular at `i`.
  have hi := Host.reduce_andi_all _ _ _ _ _ h0 i
  dsimp only [cmpf, Host.absf, broadcastInDim, constant] at hi
  -- The comparison at `i` is `|X i| < +∞` in the linear order of the extended reals.
  have hx : max (X i) (-(X i)) < (⊤ : EReal) := by
    rw [Ideal.cmpf_def, Ideal.hostAbsf_def, Ideal.absf_def, inf_bits_eq_top] at hi
    simp only [Ideal.cmp, ofBool_eq_one_iff, decide_eq_true_eq] at hi
    exact hi
  exact real_of_abs_lt_top (X i) hx

end Cert.Finite

end
-- ==== Proof.lean ====
/-
  The certificate. Both programs compute, for sixteen independent problems of 2048 view-major rows, a supervised
  contrastive loss. The kernel computes each row's value as (∑ μ·a)/(∑ μ) - M - log S from one tile of logits, where
  a are the row's logits, M their maximum, S the sum of the shifted exponentials over the other rows and μ the mask of
  the other rows with the same label; the reference computes (∑ μ·((a - M) - log S))/(∑ μ). Every row has at least
  one positive (its sample's other view), all quantities are real when the features are, and the two formulas agree by
  distributing the sum; the kernel's product with the reciprocal temperature, named exactly, is the reference's
  quotient. The means agree because 32768 = 2048 · 16.
  The three frames: each kernel program runs its seven layout operations, its one region (64 grid points, the
  feature matrix read through two windows at half shares) and its seven closing operations, touching no argument;
  the reference is a straight line of host operations.
-/
import proofs.«105418_j83786222010855_1_alg».proof.Defs
import proofs.«105418_j83786222010855_1_alg».proof.Proof.Gen.Kernel
import proofs.«105418_j83786222010855_1_alg».proof.Proof.Gen.KernelIdeal
import proofs.«105418_j83786222010855_1_alg».proof.Proof.Gen.ReferenceIdeal
import proofs.«105418_j83786222010855_1_alg».proof.Proof.Gen.Pre_finite_inputs
import proofs.«105418_j83786222010855_1_alg».proof.Proof.Gen.ReferenceIdeal.Run
import proofs.«105418_j83786222010855_1_alg».proof.Proof.Gen.ReferenceIdeal.Read
import proofs.«105418_j83786222010855_1_alg».proof.Proof.KernelRun
import proofs.«105418_j83786222010855_1_alg».proof.Proof.KernelIdealRun
import proofs.«105418_j83786222010855_1_alg».proof.Proof.KernelIdealTail
import proofs.«105418_j83786222010855_1_alg».proof.Proof.RefValue
import proofs.«105418_j83786222010855_1_alg».proof.Proof.Algebra
import proofs.«105418_j83786222010855_1_alg».proof.Proof.Finite
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Run.frame m ρ

/-- So does the idealized one. -/
theorem frame_kernelIdeal : Cert.frame_KernelIdeal := fun m ρ _ => Cert.KernelIdeal.Run.frame m ρ

/-- The reference is a straight line of host operations. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one named constant: the reciprocal temperature denotes the exact reciprocal of the reference's divisor. -/
theorem preserves : Cert.preserves_Kernel_KernelIdeal :=
  IdealRules.named_const.statement Cert.KernelIdeal.κ "inv_temperature" .f32 0x41649249#32 ((134217728 / 9395241 : ℝ) : EReal) rfl

/-- The two idealized programs end with the same extended real. -/
theorem algebraic : Cert.algebraic_KernelIdeal_ReferenceIdeal := by
  intro m ρ m' ρ' hpre hagree
  refine ⟨fun c => fun _ => Cert.Spec.lossK (Cert.KernelIdeal.KValue.xs m c) (Cert.KernelIdeal.KValue.ys m c), ?_, ?_⟩
  · exact (θ_run Cert.KernelIdeal.defs _ _).mono
      (fun r h c => ⟨(h c).1.trans (Cert.KernelIdeal.KValue.W3_v11 m ρ c), (h c).2⟩)
      (Cert.KernelIdeal.Run.run_result (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v48_eq, Cert.ReferenceIdeal.RefValue.ref_value, (hagree c).1, (hagree c).2]
    funext _
    exact (Cert.Spec.loss_eq _ _ fun b p v d =>
      Cert.Finite.real_of_pre _ _ (hpre c) (ValueIdx.ix4 b p v d)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
